-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel

variable [Facts]

def fn {F : FTy → Type} [FloatOps F] (main_arg0 : FVec F S64x2x512x512 .f32) (main_arg1 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S64x2x512x512 .f32 := Host.absf main_arg1
  let main_cst_0 : FVec F S_ .f32 := constant S_ .f32 0x7F800000#32
  let main_v5 : FVec F S64x2x512x512 .f32 := broadcastInDim S64x2x512x512 ![] bcast_S_S64x2x512x512 main_cst_0
  let main_v6 : IVec S64x2x512x512 1 := cmpf .olt main_v4 main_v5
  let main_c_1 : IVec S_ 1 := constantI S_ 1 1#1
  let main_v7 : IVec S_ 1 := (fun x v => Host.reduce IntOp.andi x v reducesTo_S64x2x512x512_S_d0_1_2_3 h_S_) main_v6 main_c_1
  let main_v8 : IVec S_ 1 := andi main_v3 main_v7
  main_v8
-- ==== Kernel.lean ====
abbrev S64x2x512x512 : Shape := ⟨4, ![64, 2, 512, 512]⟩
abbrev S1x1 : Shape := ⟨2, ![1, 1]⟩
abbrev S1x2x512x512 : Shape := ⟨4, ![1, 2, 512, 512]⟩
abbrev S1x1x512x512 : Shape := ⟨4, ![1, 1, 512, 512]⟩
abbrev S512x512 : Shape := ⟨2, ![512, 512]⟩
abbrev S510x510 : Shape := ⟨2, ![510, 510]⟩
abbrev S510 : Shape := ⟨1, ![510]⟩
abbrev S510x1 : Shape := ⟨2, ![510, 1]⟩
abbrev S1 : Shape := ⟨1, ![1]⟩
abbrev S512 : Shape := ⟨1, ![512]⟩
abbrev S512x1 : Shape := ⟨2, ![512, 1]⟩
abbrev S_ : Shape := ⟨0, ![]⟩

abbrev nBuf : Space → Nat
  | .hbm => 4
  | .vmem => 8
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S1x1, .f32⟩
  | .hbm, ⟨3, _⟩ => ⟨S_, .f32⟩
  | .local _ .vmem, ⟨0, _⟩ => ⟨S1x2x512x512, .f32⟩
  | .local _ .vmem, ⟨1, _⟩ => ⟨S1x2x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v204 : BitVec 1 := Scalar.cmpi .eq arg0 c63_i32
  let v205 : BitVec 32 := Scalar.extui v204
  let c0_i32_58 : BitVec 32 := 0#32
  let v206 : BitVec 1 := Scalar.cmpi .ne v205 c0_i32_58
  v206

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2x512x512_S1x1x512x512_0_0_0_0 : ∀ a, (![0, 0, 0, 0] : Fin 4 → Nat) a + S1x1x512x512.size a ≤ S1x2x512x512.size a
  h_S1x1x512x512 : 0 < S1x1x512x512.numel
  shapeCasts_S1x1x512x512_S512x512 : S1x1x512x512.ShapeCasts S512x512
  inb_S1x2x512x512_S1x1x512x512_0_1_0_0 : ∀ a, (![0, 1, 0, 0] : Fin 4 → Nat) a + S1x1x512x512.size a ≤ S1x2x512x512.size a
  slices_S512x512_o1_1_S510x510 : S512x512.Slices ![1, 1] S510x510
  slices_S512x512_o0_1_S510x510 : S512x512.Slices ![0, 1] S510x510
  slices_S512x512_o2_1_S510x510 : S512x512.Slices ![2, 1] S510x510
  slices_S512x512_o1_0_S510x510 : S512x512.Slices ![1, 0] S510x510
  slices_S512x512_o1_2_S510x510 : S512x512.Slices ![1, 2] S510x510
  reduces_S510x510_S510 : S510x510.Reduces [1] S510
  shapeCasts_S510_S510x1 : S510.ShapeCasts S510x1
  reduces_S510x1_S1 : S510x1.Reduces [0] S1
  shapeCasts_S1_S1x1 : S1.ShapeCasts S1x1
  reduces_S512x512_S512 : S512x512.Reduces [1] S512
  shapeCasts_S512_S512x1 : S512.ShapeCasts S512x1
  reduces_S512x1_S1 : S512x1.Reduces [0] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512x512.size a ≤ S64x2x512x512.size a
  hwx0_0 : ∀ i : grid0.Coords, EltTy.bits .f32 = 32 ∨ (Rect.block (s := S64x2x512x512) S1x2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S64x2x512x512.size a
  hwx0_1 : ∀ i : grid0.Coords, EltTy.bits .f32 = 32 ∨ (Rect.block (s := S64x2x512x512) S1x2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2x512x512 : Shape := ⟨4, ![64, 2, 512, 512]⟩
abbrev S64x2x510x510 : Shape := ⟨4, ![64, 2, 510, 510]⟩
abbrev S64x1x510x510 : Shape := ⟨4, ![64, 1, 510, 510]⟩
abbrev S64x510x510 : Shape := ⟨3, ![64, 510, 510]⟩
abbrev S_ : Shape := ⟨0, ![]⟩

abbrev nBuf : Space → Nat
  | .hbm => 268
  | .vmem => 0
  | .smem => 0
  | _ => 0

abbrev hbmTy0_0 (i : Nat) : BufTy := match i % 128 with
  | 0 => ⟨S64x2x512x512, .f32⟩
  | 1 => ⟨S64x2x512x512, .f32⟩
  | 2 => ⟨S64x2x510x510, .f32⟩
  | 3 => ⟨S64x2x510x510, .f32⟩
  | 4 => ⟨S64x2x510x510, .f32⟩
  | 5 => ⟨S64x2x510x510, .f32⟩
  | 6 => ⟨S64x2x510x510, .f32⟩
  | 7 => ⟨S64x1x510x510, .f32⟩
  | 8 => ⟨S64x510x510, .f32⟩
  | 9 => ⟨S64x1x510x510, .f32⟩
  | 10 => ⟨S64x510x510, .f32⟩
  | 11 => ⟨S64x1x510x510, .f32⟩
  | 12 => ⟨S64x510x510, .f32⟩
  | 13 => ⟨S64x1x510x510, .f32⟩
  | 14 => ⟨S64x510x510, .f32⟩
  | 15 => ⟨S64x1x510x510, .f32⟩
  | 16 => ⟨S64x510x510, .f32⟩
  | 17 => ⟨S64x1x510x510, .f32⟩
  | 18 => ⟨S64x510x510, .f32⟩
  | 19 => ⟨S64x1x510x510, .f32⟩
  | 20 => ⟨S64x510x510, .f32⟩
  | 21 => ⟨S64x1x510x510, .f32⟩
  | 22 => ⟨S64x510x510, .f32⟩
  | 23 => ⟨S64x1x510x510, .f32⟩
  | 24 => ⟨S64x510x510, .f32⟩
  | 25 => ⟨S64x1x510x510, .f32⟩
  | 26 => ⟨S64x510x510, .f32⟩
  | 27 => ⟨S64x510x510, .f32⟩
  | 28 => ⟨S_, .f32⟩
  | 29 => ⟨S64x510x510, .f32⟩
  | 30 => ⟨S64x510x510, .f32⟩
  | 31 => ⟨S64x510x510, .f32⟩
  | 32 => ⟨S_, .f32⟩
  | 33 => ⟨S64x510x510, .f32⟩
  | 34 => ⟨S64x510x510, .f32⟩
  | 35 => ⟨S64x510x510, .f32⟩
  | 36 => ⟨S_, .f32⟩
  | 37 => ⟨S64x510x510, .f32⟩
  | 38 => ⟨S64x510x510, .f32⟩
  | 39 => ⟨S64x510x510, .f32⟩
  | 40 => ⟨S_, .f32⟩
  | 41 => ⟨S64x510x510, .f32⟩
  | 42 => ⟨S64x510x510, .f32⟩
  | 43 => ⟨S64x510x510, .f32⟩
  | 44 => ⟨S64x510x510, .f32⟩
  | 45 => ⟨S64x510x510, .f32⟩
  | 46 => ⟨S64x510x510, .f32⟩
  | 47 => ⟨S64x510x510, .f32⟩
  | 48 => ⟨S_, .f32⟩
  | 49 => ⟨S64x510x510, .f32⟩
  | 50 => ⟨S64x510x510, .f32⟩
  | 51 => ⟨S64x510x510, .f32⟩
  | 52 => ⟨S64x510x510, .f32⟩
  | 53 => ⟨S64x510x510, .f32⟩
  | 54 => ⟨S64x510x510, .f32⟩
  | 55 => ⟨S64x510x510, .f32⟩
  | 56 => ⟨S64x510x510, .f32⟩
  | 57 => ⟨S64x510x510, .f32⟩
  | 58 => ⟨S_, .f32⟩
  | 59 => ⟨S64x510x510, .f32⟩
  | 60 => ⟨S64x510x510, .f32⟩
  | 61 => ⟨S64x510x510, .f32⟩
  | 62 => ⟨S64x510x510, .f32⟩
  | 63 => ⟨S64x510x510, .f32⟩
  | 64 => ⟨S64x510x510, .f32⟩
  | 65 => ⟨S64x510x510, .f32⟩
  | 66 => ⟨S_, .f32⟩
  | 67 => ⟨S64x510x510, .f32⟩
  | 68 => ⟨S64x510x510, .f32⟩
  | 69 => ⟨S64x510x510, .f32⟩
  | 70 => ⟨S64x510x510, .f32⟩
  | 71 => ⟨S64x510x510, .f32⟩
  | 72 => ⟨S64x510x510, .f32⟩
  | 73 => ⟨S64x510x510, .f32⟩
  | 74 => ⟨S64x510x510, .f32⟩
  | 75 => ⟨S64x510x510, .f32⟩
  | 76 => ⟨S_, .f32⟩
  | 77 => ⟨S64x510x510, .f32⟩
  | 78 => ⟨S64x510x510, .f32⟩
  | 79 => ⟨S_, .f32⟩
  | 80 => ⟨S64x510x510, .f32⟩
  | 81 => ⟨S64x510x510, .f32⟩
  | 82 => ⟨S64x510x510, .f32⟩
  | 83 => ⟨S64x510x510, .f32⟩
  | 84 => ⟨S_, .f32⟩
  | 85 => ⟨S64x510x510, .f32⟩
  | 86 => ⟨S64x510x510, .f32⟩
  | 87 => ⟨S64x510x510, .f32⟩
  | 88 => ⟨S64x510x510, .f32⟩
  | 89 => ⟨S_, .f32⟩
  | 90 => ⟨S64x510x510, .f32⟩
  | 91 => ⟨S64x510x510, .f32⟩
  | 92 => ⟨S64x510x510, .f32⟩
  | 93 => ⟨S64x510x510, .f32⟩
  | 94 => ⟨S_, .f32⟩
  | 95 => ⟨S64x510x510, .f32⟩
  | 96 => ⟨S64x510x510, .f32⟩
  | 97 => ⟨S64x510x510, .f32⟩
  | 98 => ⟨S64x510x510, .f32⟩
  | 99 => ⟨S64x510x510, .f32⟩
  | 100 => ⟨S64x510x510, .f32⟩
  | 101 => ⟨S64x510x510, .f32⟩
  | 102 => ⟨S_, .f32⟩
  | 103 => ⟨S64x510x510, .f32⟩
  | 104 => ⟨S64x510x510, .f32⟩
  | 105 => ⟨S64x510x510, .f32⟩
  | 106 => ⟨S64x510x510, .f32⟩
  | 107 => ⟨S64x510x510, .f32⟩
  | 108 => ⟨S_, .f32⟩
  | 109 => ⟨S64x510x510, .f32⟩
  | 110 => ⟨S64x510x510, .f32⟩
  | 111 => ⟨S64x510x510, .f32⟩
  | 112 => ⟨S64x2x510x510, .f32⟩
  | 113 => ⟨S64x2x510x510, .f32⟩
  | 114 => ⟨S64x2x510x510, .f32⟩
  | 115 => ⟨S64x2x510x510, .f32⟩
  | 116 => ⟨S64x2x510x510, .f32⟩
  | 117 => ⟨S64x1x510x510, .f32⟩
  | 118 => ⟨S64x510x510, .f32⟩
  | 119 => ⟨S64x1x510x510, .f32⟩
  | 120 => ⟨S64x510x510, .f32⟩
  | 121 => ⟨S64x1x510x510, .f32⟩
  | 122 => ⟨S64x510x510, .f32⟩
  | 123 => ⟨S64x1x510x510, .f32⟩
  | 124 => ⟨S64x510x510, .f32⟩
  | 125 => ⟨S64x1x510x510, .f32⟩
  | 126 => ⟨S64x510x510, .f32⟩
  | 127 => ⟨S64x1x510x510, .f32⟩
  | _ => ⟨S64x2x512x512, .f32⟩

abbrev hbmTy0_1 (i : Nat) : BufTy := match i % 128 with
  | 0 => ⟨S64x510x510, .f32⟩
  | 1 => ⟨S64x1x510x510, .f32⟩
  | 2 => ⟨S64x510x510, .f32⟩
  | 3 => ⟨S64x1x510x510, .f32⟩
  | 4 => ⟨S64x510x510, .f32⟩
  | 5 => ⟨S64x1x510x510, .f32⟩
  | 6 => ⟨S64x510x510, .f32⟩
  | 7 => ⟨S64x1x510x510, .f32⟩
  | 8 => ⟨S64x510x510, .f32⟩
  | 9 => ⟨S64x510x510, .f32⟩
  | 10 => ⟨S_, .f32⟩
  | 11 => ⟨S64x510x510, .f32⟩
  | 12 => ⟨S64x510x510, .f32⟩
  | 13 => ⟨S64x510x510, .f32⟩
  | 14 => ⟨S_, .f32⟩
  | 15 => ⟨S64x510x510, .f32⟩
  | 16 => ⟨S64x510x510, .f32⟩
  | 17 => ⟨S64x510x510, .f32⟩
  | 18 => ⟨S_, .f32⟩
  | 19 => ⟨S64x510x510, .f32⟩
  | 20 => ⟨S64x510x510, .f32⟩
  | 21 => ⟨S64x510x510, .f32⟩
  | 22 => ⟨S_, .f32⟩
  | 23 => ⟨S64x510x510, .f32⟩
  | 24 => ⟨S64x510x510, .f32⟩
  | 25 => ⟨S64x510x510, .f32⟩
  | 26 => ⟨S64x510x510, .f32⟩
  | 27 => ⟨S64x510x510, .f32⟩
  | 28 => ⟨S64x510x510, .f32⟩
  | 29 => ⟨S64x510x510, .f32⟩
  | 30 => ⟨S_, .f32⟩
  | 31 => ⟨S64x510x510, .f32⟩
  | 32 => ⟨S64x510x510, .f32⟩
  | 33 => ⟨S64x510x510, .f32⟩
  | 34 => ⟨S64x510x510, .f32⟩
  | 35 => ⟨S64x510x510, .f32⟩
  | 36 => ⟨S64x510x510, .f32⟩
  | 37 => ⟨S64x510x510, .f32⟩
  | 38 => ⟨S64x510x510, .f32⟩
  | 39 => ⟨S64x510x510, .f32⟩
  | 40 => ⟨S_, .f32⟩
  | 41 => ⟨S64x510x510, .f32⟩
  | 42 => ⟨S64x510x510, .f32⟩
  | 43 => ⟨S64x510x510, .f32⟩
  | 44 => ⟨S64x510x510, .f32⟩
  | 45 => ⟨S64x510x510, .f32⟩
  | 46 => ⟨S64x510x510, .f32⟩
  | 47 => ⟨S64x510x510, .f32⟩
  | 48 => ⟨S_, .f32⟩
  | 49 => ⟨S64x510x510, .f32⟩
  | 50 => ⟨S64x510x510, .f32⟩
  | 51 => ⟨S64x510x510, .f32⟩
  | 52 => ⟨S64x510x510, .f32⟩
  | 53 => ⟨S64x510x510, .f32⟩
  | 54 => ⟨S64x510x510, .f32⟩
  | 55 => ⟨S64x510x510, .f32⟩
  | 56 => ⟨S64x510x510, .f32⟩
  | 57 => ⟨S64x510x510, .f32⟩
  | 58 => ⟨S_, .f32⟩
  | 59 => ⟨S64x510x510, .f32⟩
  | 60 => ⟨S64x510x510, .f32⟩
  | 61 => ⟨S_, .f32⟩
  | 62 => ⟨S64x510x510, .f32⟩
  | 63 => ⟨S64x510x510, .f32⟩
  | 64 => ⟨S64x510x510, .f32⟩
  | 65 => ⟨S64x510x510, .f32⟩
  | 66 => ⟨S_, .f32⟩
  | 67 => ⟨S64x510x510, .f32⟩
  | 68 => ⟨S64x510x510, .f32⟩
  | 69 => ⟨S64x510x510, .f32⟩
  | 70 => ⟨S64x510x510, .f32⟩
  | 71 => ⟨S_, .f32⟩
  | 72 => ⟨S64x510x510, .f32⟩
  | 73 => ⟨S64x510x510, .f32⟩
  | 74 => ⟨S64x510x510, .f32⟩
  | 75 => ⟨S64x510x510, .f32⟩
  | 76 => ⟨S_, .f32⟩
  | 77 => ⟨S64x510x510, .f32⟩
  | 78 => ⟨S64x510x510, .f32⟩
  | 79 => ⟨S64x510x510, .f32⟩
  | 80 => ⟨S64x510x510, .f32⟩
  | 81 => ⟨S64x510x510, .f32⟩
  | 82 => ⟨S64x510x510, .f32⟩
  | 83 => ⟨S64x510x510, .f32⟩
  | 84 => ⟨S_, .f32⟩
  | 85 => ⟨S64x510x510, .f32⟩
  | 86 => ⟨S64x510x510, .f32⟩
  | 87 => ⟨S64x510x510, .f32⟩
  | 88 => ⟨S64x510x510, .f32⟩
  | 89 => ⟨S64x510x510, .f32⟩
  | 90 => ⟨S_, .f32⟩
  | 91 => ⟨S64x510x510, .f32⟩
  | 92 => ⟨S64x510x510, .f32⟩
  | 93 => ⟨S64x510x510, .f32⟩
  | 94 => ⟨S64x510x510, .f32⟩
  | 95 => ⟨S64x510x510, .f32⟩
  | 96 => ⟨S_, .f32⟩
  | 97 => ⟨S_, .f32⟩
  | 98 => ⟨S_, .f32⟩
  | 99 => ⟨S_, .f32⟩
  | 100 => ⟨S64x510x510, .f32⟩
  | 101 => ⟨S64x510x510, .f32⟩
  | 102 => ⟨S64x510x510, .f32⟩
  | 103 => ⟨S64x510x510, .f32⟩
  | 104 => ⟨S64x510x510, .f32⟩
  | 105 => ⟨S_, .f32⟩
  | 106 => ⟨S_, .f32⟩
  | 107 => ⟨S_, .f32⟩
  | 108 => ⟨S_, .f32⟩
  | 109 => ⟨S64x510x510, .f32⟩
  | 110 => ⟨S64x510x510, .f32⟩
  | 111 => ⟨S64x510x510, .f32⟩
  | 112 => ⟨S64x510x510, .f32⟩
  | 113 => ⟨S64x510x510, .f32⟩
  | 114 => ⟨S64x510x510, .f32⟩
  | 115 => ⟨S64x510x510, .f32⟩
  | 116 => ⟨S64x510x510, .f32⟩
  | 117 => ⟨S64x510x510, .f32⟩
  | 118 => ⟨S64x510x510, .f32⟩
  | 119 => ⟨S64x510x510, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S64x2x512x512, .f32⟩
  | 127 => ⟨S64x2x512x512, .f32⟩
  | _ => ⟨S64x2x512x512, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S64x2x512x512, .f32⟩

abbrev hbmTy (i : Nat) : BufTy := match i / 128 with
  | 0 => hbmTy0_0 i
  | 1 => hbmTy0_1 i
  | 2 => hbmTy0_2 i
  | _ => ⟨S64x2x512x512, .f32⟩

abbrev bufTy : (tb : Table) → Fin (tcTables nBuf tb) → BufTy
  | .hbm, ⟨i, _⟩ => hbmTy i
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_cst : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_1 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩
abbrev main_v68 : Ref sig .tc := ⟨.hbm, 78, rfl⟩
abbrev main_cst_7 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_8 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_9 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_10 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_11 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_12 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_13 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_14 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_15 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_16 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_cst_17 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_cst_18 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_cst_19 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_cst_20 : Ref sig .tc := ⟨.hbm, 186, rfl⟩
abbrev main_v163 : Ref sig .tc := ⟨.hbm, 187, rfl⟩
abbrev main_v164 : Ref sig .tc := ⟨.hbm, 188, rfl⟩
abbrev main_cst_21 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_cst_22 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_cst_23 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_cst_24 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_cst_25 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_26 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_cst_27 : Ref sig .tc := ⟨.hbm, 224, rfl⟩
abbrev main_v194 : Ref sig .tc := ⟨.hbm, 225, rfl⟩
abbrev main_cst_28 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_cst_29 : Ref sig .tc := ⟨.hbm, 233, rfl⟩
abbrev main_v201 : Ref sig .tc := ⟨.hbm, 234, rfl⟩
abbrev main_cst_30 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_cst_31 : Ref sig .tc := ⟨.hbm, 248, rfl⟩
abbrev main_v214 : Ref sig .tc := ⟨.hbm, 249, rfl⟩
abbrev main_cst_32 : Ref sig .tc := ⟨.hbm, 250, rfl⟩
abbrev main_v215 : Ref sig .tc := ⟨.hbm, 251, rfl⟩
abbrev main_cst_33 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_cst_34 : Ref sig .tc := ⟨.hbm, 256, rfl⟩
abbrev main_v219 : Ref sig .tc := ⟨.hbm, 257, rfl⟩
abbrev main_cst_35 : Ref sig .tc := ⟨.hbm, 258, rfl⟩
abbrev main_v220 : Ref sig .tc := ⟨.hbm, 259, rfl⟩
abbrev main_cst_36 : Ref sig .tc := ⟨.hbm, 260, rfl⟩
abbrev main_v221 : Ref sig .tc := ⟨.hbm, 261, rfl⟩
abbrev main_cst_37 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_cst_38 : Ref sig .tc := ⟨.hbm, 266, rfl⟩
abbrev main_v225 : Ref sig .tc := ⟨.hbm, 267, rfl⟩

abbrev nD : Nat := 1
abbrev τ : Topo := Topo.v7x

variable {F : FTy → Type} [FloatOps F]

class Facts₀ : Prop where
  slices_S64x2x512x512_S64x2x510x510_0_0_1_1 : S64x2x512x512.Slices ![0, 0, 1, 1] S64x2x510x510
  slices_S64x2x512x512_S64x2x510x510_0_0_0_1 : S64x2x512x512.Slices ![0, 0, 0, 1] S64x2x510x510
  slices_S64x2x512x512_S64x2x510x510_0_0_2_1 : S64x2x512x512.Slices ![0, 0, 2, 1] S64x2x510x510
  slices_S64x2x512x512_S64x2x510x510_0_0_1_0 : S64x2x512x512.Slices ![0, 0, 1, 0] S64x2x510x510
  slices_S64x2x512x512_S64x2x510x510_0_0_1_2 : S64x2x512x512.Slices ![0, 0, 1, 2] S64x2x510x510
  slices_S64x2x510x510_S64x1x510x510_0_0_0_0 : S64x2x510x510.Slices ![0, 0, 0, 0] S64x1x510x510
  shapeCasts_S64x1x510x510_S64x510x510 : S64x1x510x510.ShapeCasts S64x510x510
  slices_S64x2x510x510_S64x1x510x510_0_1_0_0 : S64x2x510x510.Slices ![0, 1, 0, 0] S64x1x510x510
  bcast_S_S64x510x510 : S_.BroadcastsInDim S64x510x510 (![] : Fin 0 → Fin S64x510x510.rank)
  reducesTo_S64x510x510_S_d0_1_2 : S64x510x510.ReducesTo [0, 1, 2] S_
  h_S_ : 0 < S_.numel
  reducesTo_S64x2x512x512_S_d0_1_2_3 : S64x2x512x512.ReducesTo [0, 1, 2, 3] S_

variable [Facts₀]

class Facts : Prop extends Facts₀ where

variable [Facts]
-- ==== Proof.Stencil.lean ====
/-
  The pointwise mathematics shared by both programs. A velocity field is an array [batch, component, x, y]
  of extended reals, component 0 the velocity u and component 1 the velocity v. At an interior point (r, c) of
  a batch, with the five stencil values of each component (centre m, left l, right r, below b, above t: the
  neighbours along x and along y), the discrete residuals are

    mass  = (u_r - u_l) / 2 + (v_t - v_b) / 2
    mom_u = ((u_r + u_m)^2 - (u_l + u_m)^2) / 4 + ((u_t + u_m)(v_t + v_m) - (u_b + u_m)(v_b + v_m)) / 4
              - ((u_r - 2 u_m + u_l) + (u_t - 2 u_m + u_b)) * (1/Re)
    mom_v = ((v_r + v_m)(u_r + u_m) - (v_l + v_m)(u_l + u_m)) / 4 + ((v_t + v_m)^2 - (v_b + v_m)^2) / 4
              - ((v_r - 2 v_m + v_l) + (v_t - 2 v_m + v_b)) * (1/Re)

  (the halves, quarters, the factor two and 1/Re each the one binary32 constant both programs spell), and the loss is

    ( mean |mass(truth) - mass(pred)| * 5 + mean (|mom_u(truth) - mom_u(pred)| + |mom_v(truth) - mom_v(pred)|) * 25
      + mean |pred - truth| ) / 3,

  the first two means over the 64 * 510 * 510 interior points, the last over all 64 * 2 * 512 * 512 entries. The sums
  are taken batch by batch: per batch a sum over the rows of the sums over the columns. A stencil is read through an
  accessor (component, shift along x, shift along y, each shift 0, 1 or 2, the centre at shift (1, 1)), so that the
  same residuals serve a whole field at a batch and a single batch's block.
-/
import Idealize.ShloMosaic.PureOps.Ideal
import Idealize.ShloMosaic.Lib.ValueIdx

noncomputable section

namespace Cert.Stencil

open Idealize.ShloMosaic Idealize.ShloMosaic.ValueIdx

/-- A velocity field: batch, component, x, y. -/
abbrev Field : Type := (⟨4, ![64, 2, 512, 512]⟩ : Shape).Idx → EReal

/-- One batch of a field. -/
abbrev Block : Type := (⟨4, ![1, 2, 512, 512]⟩ : Shape).Idx → EReal

/-- The constants, each the exact value of its binary32 pattern. -/
abbrev half : EReal := Ideal.ofBits .f32 0x3F000000#32
abbrev quarter : EReal := Ideal.ofBits .f32 0x3E800000#32
abbrev two : EReal := Ideal.ofBits .f32 0x40000000#32
abbrev invRe : EReal := Ideal.ofBits .f32 0x3B23D70A#32
abbrev nInterior : EReal := Ideal.ofBits .f32 0x4B7E0100#32
abbrev nAll : EReal := Ideal.ofBits .f32 0x4C000000#32
abbrev five : EReal := Ideal.ofBits .f32 0x40A00000#32
abbrev twentyFive : EReal := Ideal.ofBits .f32 0x41C80000#32
abbrev three : EReal := Ideal.ofBits .f32 0x40400000#32

/-- The absolute value on the extended reals. -/
abbrev absE (x : EReal) : EReal := max x (-x)

/-- A stencil: component, shift along x, shift along y. -/
abbrev Acc : Type := Fin 2 → Fin 3 → Fin 3 → EReal

/-- The mass residual from the four stencil values it uses. -/
def massR (ul ur vb vt : EReal) : EReal := (ur - ul) * half + (vt - vb) * half

/-- The u-momentum residual. -/
def momUR (um vm ul ur ub ut vb vt : EReal) : EReal :=
  quarter * ((ur + um) * (ur + um) - (ul + um) * (ul + um))
    + quarter * ((ut + um) * (vt + vm) - (ub + um) * (vb + vm))
    - ((ur - um * two + ul) + (ut - um * two + ub)) * invRe

/-- The v-momentum residual. -/
def momVR (um vm ul ur vl vr vb vt : EReal) : EReal :=
  quarter * ((vr + vm) * (ur + um) - (vl + vm) * (ul + um))
    + quarter * ((vt + vm) * (vt + vm) - (vb + vm) * (vb + vm))
    - ((vr - vm * two + vl) + (vt - vm * two + vb)) * invRe

/-- The residuals of a stencil. -/
def massOf (f : Acc) : EReal := massR (f 0 0 1) (f 0 2 1) (f 1 1 0) (f 1 1 2)

def momUOf (f : Acc) : EReal :=
  momUR (f 0 1 1) (f 1 1 1) (f 0 0 1) (f 0 2 1) (f 0 1 0) (f 0 1 2) (f 1 1 0) (f 1 1 2)

def momVOf (f : Acc) : EReal :=
  momVR (f 0 1 1) (f 1 1 1) (f 0 0 1) (f 0 2 1) (f 1 0 1) (f 1 2 1) (f 1 1 0) (f 1 1 2)

/-- The two interior summands: the prediction's stencil `p` against the truth's `t`. -/
def massAbsOf (p t : Acc) : EReal := absE (massOf t - massOf p)

def momAbsOf (p t : Acc) : EReal := absE (momUOf t - momUOf p) + absE (momVOf t - momVOf p)

/-- The stencil of a field at the interior point (r, c) of batch b. -/
def accAt (X : Field) (b : Fin 64) (r c : Fin 510) : Acc := fun ch dr dc =>
  X (ix4 b ch ⟨r.val + dr.val, by have := r.isLt; have := dr.isLt; omega⟩
    ⟨c.val + dc.val, by have := c.isLt; have := dc.isLt; omega⟩)

/-- The stencil of one batch's block at the interior point (r, c). -/
def accBlk (x : Block) (r c : Fin 510) : Acc := fun ch dr dc =>
  x (ix4 (0 : Fin 1) ch ⟨r.val + dr.val, by have := r.isLt; have := dr.isLt; omega⟩
    ⟨c.val + dc.val, by have := c.isLt; have := dc.isLt; omega⟩)

/-- One batch's three sums, from the fields: rows outside, columns inside. -/
def massB (P T : Field) (b : Fin 64) : EReal :=
  ∑ r : Fin 510, ∑ c : Fin 510, massAbsOf (accAt P b r c) (accAt T b r c)

def momB (P T : Field) (b : Fin 64) : EReal :=
  ∑ r : Fin 510, ∑ c : Fin 510, momAbsOf (accAt P b r c) (accAt T b r c)

def l1B (P T : Field) (b : Fin 64) : EReal :=
  (∑ x : Fin 512, ∑ y : Fin 512, absE (P (ix4 b (0 : Fin 2) x y) - T (ix4 b (0 : Fin 2) x y)))
    + (∑ x : Fin 512, ∑ y : Fin 512, absE (P (ix4 b (1 : Fin 2) x y) - T (ix4 b (1 : Fin 2) x y)))

/-- The same three sums from one batch's blocks. -/
def massBlk (p t : Block) : EReal := ∑ r : Fin 510, ∑ c : Fin 510, massAbsOf (accBlk p r c) (accBlk t r c)

def momBlk (p t : Block) : EReal := ∑ r : Fin 510, ∑ c : Fin 510, momAbsOf (accBlk p r c) (accBlk t r c)

def l1Blk (p t : Block) : EReal :=
  (∑ x : Fin 512, ∑ y : Fin 512, absE (p (ix4 (0 : Fin 1) (0 : Fin 2) x y) - t (ix4 (0 : Fin 1) (0 : Fin 2) x y)))
    + (∑ x : Fin 512, ∑ y : Fin 512, absE (p (ix4 (0 : Fin 1) (1 : Fin 2) x y) - t (ix4 (0 : Fin 1) (1 : Fin 2) x y)))

/-- The loss. -/
def loss (P T : Field) : EReal :=
  Ideal.div
    (Ideal.div (∑ b : Fin 64, massB P T b) nInterior * five + Ideal.div (∑ b : Fin 64, momB P T b) nInterior * twentyFive
      + Ideal.div (∑ b : Fin 64, l1B P T b) nAll)
    three

/-- A block that is batch `b` of a field has that batch's stencils. -/
theorem accBlk_of_batch (X : Field) (x : Block) (b : Fin 64)
    (h : ∀ (ch : Fin 2) (u v : Fin 512), x (ix4 (0 : Fin 1) ch u v) = X (ix4 b ch u v)) (r c : Fin 510) :
    accBlk x r c = accAt X b r c :=
  funext fun ch => funext fun dr => funext fun dc => h ch _ _

/-- Blocks that are batch `b` of the two fields have that batch's sums. -/
theorem massBlk_of_batch (P T : Field) (p t : Block) (b : Fin 64)
    (hp : ∀ (ch : Fin 2) (u v : Fin 512), p (ix4 (0 : Fin 1) ch u v) = P (ix4 b ch u v))
    (ht : ∀ (ch : Fin 2) (u v : Fin 512), t (ix4 (0 : Fin 1) ch u v) = T (ix4 b ch u v)) :
    massBlk p t = massB P T b := by
  unfold massBlk massB
  simp only [accBlk_of_batch P p b hp, accBlk_of_batch T t b ht]

theorem momBlk_of_batch (P T : Field) (p t : Block) (b : Fin 64)
    (hp : ∀ (ch : Fin 2) (u v : Fin 512), p (ix4 (0 : Fin 1) ch u v) = P (ix4 b ch u v))
    (ht : ∀ (ch : Fin 2) (u v : Fin 512), t (ix4 (0 : Fin 1) ch u v) = T (ix4 b ch u v)) :
    momBlk p t = momB P T b := by
  unfold momBlk momB
  simp only [accBlk_of_batch P p b hp, accBlk_of_batch T t b ht]

theorem l1Blk_of_batch (P T : Field) (p t : Block) (b : Fin 64)
    (hp : ∀ (ch : Fin 2) (u v : Fin 512), p (ix4 (0 : Fin 1) ch u v) = P (ix4 b ch u v))
    (ht : ∀ (ch : Fin 2) (u v : Fin 512), t (ix4 (0 : Fin 1) ch u v) = T (ix4 b ch u v)) :
    l1Blk p t = l1B P T b := by
  unfold l1Blk l1B
  simp only [hp, ht]

end Cert.Stencil

end
-- ==== Proof.Layout.lean ====
/-
  Layout operations of the two programs read at an index.

  * The kernel sums a [R, C] vector along its lanes, views the [R] result as a column [R, 1], sums that along its
    rows and views the one number as [1, 1]: the number is the double sum over rows and columns.
  * The reference takes a 510 x 510 window of every [512, 512] plane of the [64, 2, 512, 512] array, then one
    component of it, and drops the unit axis: at (b, r, c) this is the array at (b, component, r + dr, c + dc).
  * The kernel views a [1, 1, 512, 512] slab as [512, 512] and takes the same window: at (r, c) this is the slab at
    (0, 0, r + dr, c + dc).
-/
import Idealize.ShloMosaic.PureOps.Ideal.Laws
import Idealize.ShloMosaic.Lib.ValueIdx
import Idealize.ShloMosaic.Lib.Pipeline.Value

noncomputable section

namespace Cert.Layout

open Idealize.ShloMosaic Idealize.ShloMosaic.ValueIdx

/-- Lane sums, then the sum of the column of lane sums, keeping unit axes: the double sum. -/
theorem sum_keepdims {R C : Nat} {φ : FTy} (x : FVec Ideal ⟨2, ![R, C]⟩ φ) (acc : BitVec φ.bits)
    (h1 : (⟨2, ![R, C]⟩ : Shape).Reduces [1] ⟨1, ![R]⟩) (hφ : FKind.Formats φ) (hacc : acc = FKind.add.neutral φ hφ)
    (hc1 : (⟨1, ![R]⟩ : Shape).ShapeCasts ⟨2, ![R, 1]⟩)
    (h2 : (⟨2, ![R, 1]⟩ : Shape).Reduces [0] ⟨1, ![1]⟩)
    (hc2 : (⟨1, ![1]⟩ : Shape).ShapeCasts ⟨2, ![1, 1]⟩) (j : (⟨2, ![1, 1]⟩ : Shape).Idx) :
    shapeCast ⟨2, ![1, 1]⟩ (multiReduction .add [0] ⟨1, ![1]⟩
        (shapeCast ⟨2, ![R, 1]⟩ (multiReduction .add [1] ⟨1, ![R]⟩ x acc h1 hφ hacc) hc1) acc h2 hφ hacc) hc2 j
      = ∑ r : Fin R, ∑ c : Fin C, x (ix2 r c) := by
  refine (shapeCast_apply _ hc2 j (ix1 (0 : Fin 1)) ?_).trans ?_
  · rw [Shape.rowMajor_val_one, Shape.rowMajor_val_two]
    have h0 : (j 0).val < 1 := (j 0).isLt
    have h1' : (j 1).val < 1 := (j 1).isLt
    show (0 : Nat) = (j 0).val * 1 + (j 1).val
    omega
  rw [Ideal.multiReduction_add_total _ _ h2 (fun b => by match b with | ⟨0, _⟩ => rfl) hφ hacc, sum_idx2]
  refine Finset.sum_congr rfl fun r _ => ?_
  rw [Fin.sum_univ_one]
  refine (shapeCast_apply _ hc1 (ix2 r (0 : Fin 1)) (ix1 r) ?_).trans ?_
  · rw [Shape.rowMajor_val_one, Shape.rowMajor_val_two]
    show r.val = r.val * 1 + 0
    omega
  rw [Ideal.multiReduction_add_single _ _ h1 hφ hacc]
  refine Finset.sum_congr rfl fun c _ => congrArg x ?_
  funext a
  match a with
  | ⟨0, _⟩ => rfl
  | ⟨1, _⟩ => rfl

/-- The reference's field: a window of the whole array, one component of it, the unit axis dropped. -/
theorem window_component_apply {α : Type} (X : (⟨4, ![64, 2, 512, 512]⟩ : Shape).Idx → α) (dr dc ch : Nat)
    (h1 : (⟨4, ![64, 2, 512, 512]⟩ : Shape).Slices ![0, 0, dr, dc] ⟨4, ![64, 2, 510, 510]⟩)
    (h2 : (⟨4, ![64, 2, 510, 510]⟩ : Shape).Slices ![0, ch, 0, 0] ⟨4, ![64, 1, 510, 510]⟩)
    (h3 : (⟨4, ![64, 1, 510, 510]⟩ : Shape).ShapeCasts ⟨3, ![64, 510, 510]⟩)
    (b : Fin 64) (r c : Fin 510) (k : (⟨4, ![64, 2, 512, 512]⟩ : Shape).Idx)
    (hk0 : (k 0).val = b.val) (hk1 : (k 1).val = ch) (hk2 : (k 2).val = r.val + dr) (hk3 : (k 3).val = c.val + dc) :
    shapeCast ⟨3, ![64, 510, 510]⟩ (extractStridedSlice ⟨4, ![64, 1, 510, 510]⟩ ![0, ch, 0, 0]
      (extractStridedSlice ⟨4, ![64, 2, 510, 510]⟩ ![0, 0, dr, dc] X h1) h2) h3 (ix3 b r c) = X k := by
  refine (shapeCast_apply _ h3 (ix3 b r c) (ix4 b (0 : Fin 1) r c) ?_).trans ?_
  · rw [Shape.rowMajor_val_four, Shape.rowMajor_val_three]
    show ((b.val * 1 + 0) * 510 + r.val) * 510 + c.val = (b.val * 510 + r.val) * 510 + c.val
    omega
  have hch : ch < 2 := by have := (k 1).isLt; rw [← hk1]; exact this
  refine (extractStridedSlice_apply _ _ h2 (ix4 b (0 : Fin 1) r c) (ix4 b (⟨ch, hch⟩ : Fin 2) r c) fun a => ?_).trans ?_
  · match a with
    | ⟨0, _⟩ => show b.val = 0 + b.val; omega
    | ⟨1, _⟩ => show ch = ch + 0; omega
    | ⟨2, _⟩ => show r.val = 0 + r.val; omega
    | ⟨3, _⟩ => show c.val = 0 + c.val; omega
  refine extractStridedSlice_apply _ _ h1 (ix4 b (⟨ch, hch⟩ : Fin 2) r c) k fun a => ?_
  match a with
  | ⟨0, _⟩ => show (k 0).val = 0 + b.val; omega
  | ⟨1, _⟩ => show (k 1).val = 0 + ch; omega
  | ⟨2, _⟩ => show (k 2).val = dr + r.val; omega
  | ⟨3, _⟩ => show (k 3).val = dc + c.val; omega

/-- The kernel's field: the slab viewed as a plane, a window of it. -/
theorem slab_window_apply {α : Type} (v : (⟨4, ![1, 1, 512, 512]⟩ : Shape).Idx → α) (dr dc : Nat)
    (h1 : (⟨4, ![1, 1, 512, 512]⟩ : Shape).ShapeCasts ⟨2, ![512, 512]⟩)
    (h2 : (⟨2, ![512, 512]⟩ : Shape).Slices ![dr, dc] ⟨2, ![510, 510]⟩)
    (r c : Fin 510) (k : (⟨4, ![1, 1, 512, 512]⟩ : Shape).Idx)
    (hk2 : (k 2).val = r.val + dr) (hk3 : (k 3).val = c.val + dc) :
    extractStridedSlice ⟨2, ![510, 510]⟩ ![dr, dc] (shapeCast ⟨2, ![512, 512]⟩ v h1) h2 (ix2 r c) = v k := by
  have hx : (k 2).val < 512 := (k 2).isLt
  have hy : (k 3).val < 512 := (k 3).isLt
  refine (extractStridedSlice_apply _ _ h2 (ix2 r c) (ix2 (⟨r.val + dr, by omega⟩ : Fin 512) (⟨c.val + dc, by omega⟩ : Fin 512)) fun a => ?_).trans ?_
  · match a with
    | ⟨0, _⟩ => show r.val + dr = dr + r.val; omega
    | ⟨1, _⟩ => show c.val + dc = dc + c.val; omega
  refine shapeCast_apply _ h1 _ k ?_
  rw [Shape.rowMajor_val_four, Shape.rowMajor_val_two]
  have h0 : (k 0).val < 1 := (k 0).isLt
  have h1' : (k 1).val < 1 := (k 1).isLt
  show (((k 0).val * 1 + (k 1).val) * 512 + (k 2).val) * 512 + (k 3).val = (r.val + dr) * 512 + (c.val + dc)
  omega

/-! ## The same reads as rewriting rules: the index on the right is spelt out, its ranges read off the evidence -/

/-- A window of a [512, 512] plane that is [510, 510] starts at most two in. -/
theorem window_le {dr dc : Nat} (h : (⟨2, ![512, 512]⟩ : Shape).Slices ![dr, dc] ⟨2, ![510, 510]⟩) : dr ≤ 2 ∧ dc ≤ 2 := by
  obtain ⟨_, hb⟩ := h
  have h0 : dr + 510 ≤ 512 := hb 0
  have h1 : dc + 510 ≤ 512 := hb 1
  omega

/-- The same of the windows of the whole array. -/
theorem window4_le {dr dc : Nat}
    (h : (⟨4, ![64, 2, 512, 512]⟩ : Shape).Slices ![0, 0, dr, dc] ⟨4, ![64, 2, 510, 510]⟩) : dr ≤ 2 ∧ dc ≤ 2 := by
  obtain ⟨_, hb⟩ := h
  have h0 : dr + 510 ≤ 512 := hb 2
  have h1 : dc + 510 ≤ 512 := hb 3
  omega

/-- One component of [64, 2, 510, 510] is component 0 or 1. -/
theorem component_lt {ch : Nat}
    (h : (⟨4, ![64, 2, 510, 510]⟩ : Shape).Slices ![0, ch, 0, 0] ⟨4, ![64, 1, 510, 510]⟩) : ch < 2 := by
  obtain ⟨_, hb⟩ := h
  have h1 : ch + 1 ≤ 2 := hb 1
  omega

/-- A [1, 1, 512, 512] slab inside a [1, 2, 512, 512] block is component 0 or 1. -/
theorem slab_lt {ch : Nat}
    (inb : ∀ a, (![0, ch, 0, 0] : Fin 4 → Nat) a + (![1, 1, 512, 512] : Fin 4 → Nat) a ≤ (⟨4, ![1, 2, 512, 512]⟩ : Shape).size a) :
    ch < 2 := by
  have h1 : ch + 1 ≤ 2 := inb 1
  omega

/-- The reference's field at (b, r, c). -/
theorem window_component_eq {α : Type} (X : (⟨4, ![64, 2, 512, 512]⟩ : Shape).Idx → α) (dr dc ch : Nat)
    (h1 : (⟨4, ![64, 2, 512, 512]⟩ : Shape).Slices ![0, 0, dr, dc] ⟨4, ![64, 2, 510, 510]⟩)
    (h2 : (⟨4, ![64, 2, 510, 510]⟩ : Shape).Slices ![0, ch, 0, 0] ⟨4, ![64, 1, 510, 510]⟩)
    (h3 : (⟨4, ![64, 1, 510, 510]⟩ : Shape).ShapeCasts ⟨3, ![64, 510, 510]⟩)
    (b : Fin 64) (r c : Fin 510) :
    shapeCast ⟨3, ![64, 510, 510]⟩ (extractStridedSlice ⟨4, ![64, 1, 510, 510]⟩ ![0, ch, 0, 0]
      (extractStridedSlice ⟨4, ![64, 2, 510, 510]⟩ ![0, 0, dr, dc] X h1) h2) h3 (ix3 b r c)
      = X (ix4 b (⟨ch, component_lt h2⟩ : Fin 2)
          (⟨r.val + dr, by have := (window4_le h1).1; have := r.isLt; omega⟩ : Fin 512)
          (⟨c.val + dc, by have := (window4_le h1).2; have := c.isLt; omega⟩ : Fin 512)) :=
  window_component_apply X dr dc ch h1 h2 h3 b r c _ rfl rfl rfl rfl

/-- The kernel's field at (r, c): a loaded slab of a block, viewed as a plane, a window of it. -/
theorem loaded_window_eq {Val : EltTy → Type} {e : EltTy} (x : (⟨4, ![1, 2, 512, 512]⟩ : Shape).Idx → Val e) (ch dr dc : Nat)
    (inb : ∀ a, (![0, ch, 0, 0] : Fin 4 → Nat) a + (![1, 1, 512, 512] : Fin 4 → Nat) a ≤ (⟨4, ![1, 2, 512, 512]⟩ : Shape).size a)
    (h1 : (⟨4, ![1, 1, 512, 512]⟩ : Shape).ShapeCasts ⟨2, ![512, 512]⟩)
    (h2 : (⟨2, ![512, 512]⟩ : Shape).Slices ![dr, dc] ⟨2, ![510, 510]⟩) (r c : Fin 510) :
    extractStridedSlice ⟨2, ![510, 510]⟩ ![dr, dc]
        (shapeCast ⟨2, ![512, 512]⟩ (View.ld x (Rect.unit ![0, ch, 0, 0] ![1, 1, 512, 512] inb)) h1) h2 (ix2 r c)
      = x (ix4 (0 : Fin 1) (⟨ch, slab_lt inb⟩ : Fin 2)
          (⟨r.val + dr, by have := (window_le h2).1; have := r.isLt; omega⟩ : Fin 512)
          (⟨c.val + dc, by have := (window_le h2).2; have := c.isLt; omega⟩ : Fin 512)) := by
  have hdr := (window_le h2).1
  have hdc := (window_le h2).2
  refine (slab_window_apply _ dr dc h1 h2 r c
    (ix4 (0 : Fin 1) (0 : Fin 1) (⟨r.val + dr, by have := r.isLt; omega⟩ : Fin 512) (⟨c.val + dc, by have := c.isLt; omega⟩ : Fin 512))
    rfl rfl).trans ?_
  refine congrArg x (funext fun a => Fin.ext ?_)
  match a with
  | ⟨0, _⟩ => show 0 + 1 * 0 = 0; omega
  | ⟨1, _⟩ => show ch + 1 * 0 = ch; omega
  | ⟨2, _⟩ => show 0 + 1 * (r.val + dr) = r.val + dr; omega
  | ⟨3, _⟩ => show 0 + 1 * (c.val + dc) = c.val + dc; omega

/-- A loaded slab of a block viewed as a plane, at (u, v). -/
theorem loaded_plane_eq {Val : EltTy → Type} {e : EltTy} (x : (⟨4, ![1, 2, 512, 512]⟩ : Shape).Idx → Val e) (ch : Nat)
    (inb : ∀ a, (![0, ch, 0, 0] : Fin 4 → Nat) a + (![1, 1, 512, 512] : Fin 4 → Nat) a ≤ (⟨4, ![1, 2, 512, 512]⟩ : Shape).size a)
    (h1 : (⟨4, ![1, 1, 512, 512]⟩ : Shape).ShapeCasts ⟨2, ![512, 512]⟩) (u v : Fin 512) :
    shapeCast ⟨2, ![512, 512]⟩ (View.ld x (Rect.unit ![0, ch, 0, 0] ![1, 1, 512, 512] inb)) h1 (ix2 u v)
      = x (ix4 (0 : Fin 1) (⟨ch, slab_lt inb⟩ : Fin 2) u v) := by
  refine (shapeCast_apply _ h1 (ix2 u v) (ix4 (0 : Fin 1) (0 : Fin 1) u v) ?_).trans ?_
  · rw [Shape.rowMajor_val_four, Shape.rowMajor_val_two]
    show ((0 * 1 + 0) * 512 + u.val) * 512 + v.val = u.val * 512 + v.val
    omega
  refine congrArg x (funext fun a => Fin.ext ?_)
  match a with
  | ⟨0, _⟩ => show 0 + 1 * 0 = 0; omega
  | ⟨1, _⟩ => show ch + 1 * 0 = ch; omega
  | ⟨2, _⟩ => show 0 + 1 * u.val = u.val; omega
  | ⟨3, _⟩ => show 0 + 1 * v.val = v.val; omega

end Cert.Layout

end
-- ==== Proof.KernelPoint.lean ====
/-
  What one grid point of the kernel leaves behind, as values.

  At a point the body reads its batch's two blocks (the prediction's and the truth's, each [1, 2, 512, 512]) and forms
  three numbers: the sum over the interior of |mass(truth) - mass(pred)|, the sum over the interior of
  |mom_u(truth) - mom_u(pred)| + |mom_v(truth) - mom_v(pred)|, and the sum over all entries of |pred - truth| (one
  component after the other). Each is added into its own one-element accumulator. At the first point the accumulators are
  zeroed first and the zero is read back; at the last point the three fresh accumulator values are combined into the loss,
  which is stored to the output.

  The first part is generic in the float instance: what the run found in each buffer is one of the printed payload terms of
  the block's two loaded slabs. The second part reads those terms at the extended reals: the three numbers are the block
  sums of the specification.
-/
import proofs.«159162_j53257594470622_1_alg».proof.Proof.Gen.KernelIdeal.Frame
import proofs.«159162_j53257594470622_1_alg».proof.Proof.Stencil
import proofs.«159162_j53257594470622_1_alg».proof.Proof.Layout
import Idealize.ShloMosaic.Lib.Pipeline.Value
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Point

open Cert.KernelIdeal Cert.KernelIdeal.Gen

variable {F : FTy → Type} [FloatOps F]

theorem hz : (![0, 0] : Fin 2 → Nat) = fun _ => 0 := funext fun a => by fin_cases a <;> rfl

/-! ## The payloads of a point, from its two blocks -/

/-- Component 0 of a block, as the body loads it. -/
abbrev slab0 (x : Vec F S1x2x512x512 .f32) : Vec F S1x1x512x512 .f32 :=
  View.ld x (Rect.unit ![0, 0, 0, 0] ![1, 1, 512, 512] inb_S1x2x512x512_S1x1x512x512_0_0_0_0)

/-- Component 1 of a block, as the body loads it. -/
abbrev slab1 (x : Vec F S1x2x512x512 .f32) : Vec F S1x1x512x512 .f32 :=
  View.ld x (Rect.unit ![0, 1, 0, 0] ![1, 1, 512, 512] inb_S1x2x512x512_S1x1x512x512_0_1_0_0)

/-- The point's mass number: `x0` the prediction's block, `x1` the truth's. -/
def massPay (x0 x1 : Vec F S1x2x512x512 .f32) : FVec F S1x1 .f32 :=
  k0_pay47 (k0_pay26 (k0_pay22 (slab0 x1)) (k0_pay23 (slab1 x1)))
    (k0_pay39 (k0_pay8 (slab0 x0)) (k0_pay30 (k0_pay8 (slab0 x0)))) (k0_pay40 (k0_pay9 (slab1 x0)))

/-- The point's momentum number. -/
def momPay (x0 x1 : Vec F S1x2x512x512 .f32) : FVec F S1x1 .f32 :=
  k0_pay48
    (k0_pay27 (k0_pay12 (slab0 x1)) (k0_pay13 (slab0 x1)) (k0_pay14 (slab0 x1)) (k0_pay15 (slab0 x1)) (k0_pay16 (slab0 x1)) (k0_pay17 (slab1 x1))
      (k0_pay20 (slab1 x1)) (k0_pay24 (slab0 x1)) (k0_pay25 (slab0 x1) (slab1 x1)))
    (k0_pay28 (k0_pay12 (slab0 x1)) (k0_pay13 (slab0 x1)) (k0_pay14 (slab0 x1)) (k0_pay17 (slab1 x1)) (k0_pay18 (slab1 x1)) (k0_pay19 (slab1 x1))
      (k0_pay20 (slab1 x1)) (k0_pay21 (slab1 x1)))
    (k0_pay32 (k0_pay8 (slab0 x0))) (k0_pay33 (k0_pay8 (slab0 x0))) (k0_pay34 (k0_pay9 (slab1 x0))) (k0_pay35 (k0_pay9 (slab1 x0)))
    (k0_pay36 (k0_pay9 (slab1 x0))) (k0_pay37 (k0_pay9 (slab1 x0))) (k0_pay38 (k0_pay9 (slab1 x0)))
    (k0_pay41 (k0_pay8 (slab0 x0)) (k0_pay29 (k0_pay8 (slab0 x0))) (k0_pay30 (k0_pay8 (slab0 x0))))
    (k0_pay42 (k0_pay8 (slab0 x0)) (k0_pay9 (slab1 x0)) (k0_pay29 (k0_pay8 (slab0 x0))))
    (k0_pay43 (k0_pay9 (slab1 x0)))
    (k0_pay44 (k0_pay8 (slab0 x0)) (k0_pay9 (slab1 x0)) (k0_pay29 (k0_pay8 (slab0 x0))) (k0_pay30 (k0_pay8 (slab0 x0))))
    (k0_pay45 (k0_pay8 (slab0 x0)) (k0_pay29 (k0_pay8 (slab0 x0))) (k0_pay30 (k0_pay8 (slab0 x0))))
    (k0_pay46 (k0_pay29 (k0_pay8 (slab0 x0))))

/-- The point's two absolute-difference numbers, one per component. -/
def l1aPay (x0 x1 : Vec F S1x2x512x512 .f32) : FVec F S1x1 .f32 := k0_pay49 (k0_pay8 (slab0 x0)) (k0_pay10 (slab0 x1))

def l1bPay (x0 x1 : Vec F S1x2x512x512 .f32) : FVec F S1x1 .f32 := k0_pay50 (k0_pay9 (slab1 x0)) (k0_pay11 (slab1 x1))

/-! ## What each case leaves in each buffer -/

theorem sout_B_0 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S1x2x512x512 .f32) (xs0 xs1 xs2 : Vec F S1x1 .f32) :
    sout0_B_0 c i a1 h1 a2 h2 a3 h3 a4 h4 a5 h5 a6 h6 hc0 hc1 x0 x1 xs0 xs1 xs2 = k0_pay1 (massPay x0 x1) xs0 := by
  unfold sout0_B_0
  rw [View.read_writes_eq_canon _ _ _ (scover0_B_0 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h4.read_unread, View.ld_unit_zero (S := S1x1) hz]
  rfl

theorem sout_B_1 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S1x2x512x512 .f32) (xs0 xs1 xs2 : Vec F S1x1 .f32) :
    sout0_B_1 c i a1 h1 a2 h2 a3 h3 a4 h4 a5 h5 a6 h6 hc0 hc1 x0 x1 xs0 xs1 xs2 = k0_pay2 (momPay x0 x1) xs1 := by
  unfold sout0_B_1
  rw [View.read_writes_eq_canon _ _ _ (scover0_B_1 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h5.read_unread, View.ld_unit_zero (S := S1x1) hz]
  rfl

theorem sout_B_2 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S1x2x512x512 .f32) (xs0 xs1 xs2 : Vec F S1x1 .f32) :
    sout0_B_2 c i a1 h1 a2 h2 a3 h3 a4 h4 a5 h5 a6 h6 hc0 hc1 x0 x1 xs0 xs1 xs2 = k0_pay3 (l1aPay x0 x1) (l1bPay x0 x1) xs2 := by
  unfold sout0_B_2
  rw [View.read_writes_eq_canon _ _ _ (scover0_B_2 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h6.read_unread, View.ld_unit_zero (S := S1x1) hz]
  rfl

theorem sout_C_0 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S1x2x512x512 .f32) (xs0 xs1 xs2 : Vec F S1x1 .f32) :
    sout0_C_0 c i a1 h1 a2 h2 a3 h3 a4 h4 a5 h5 a6 h6 hc0 hc1 x0 x1 xs0 xs1 xs2 = k0_pay1 (massPay x0 x1) xs0 := by
  unfold sout0_C_0
  rw [View.read_writes_eq_canon _ _ _ (scover0_C_0 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h4.read_unread, View.ld_unit_zero (S := S1x1) hz]
  rfl

theorem sout_C_1 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S1x2x512x512 .f32) (xs0 xs1 xs2 : Vec F S1x1 .f32) :
    sout0_C_1 c i a1 h1 a2 h2 a3 h3 a4 h4 a5 h5 a6 h6 hc0 hc1 x0 x1 xs0 xs1 xs2 = k0_pay2 (momPay x0 x1) xs1 := by
  unfold sout0_C_1
  rw [View.read_writes_eq_canon _ _ _ (scover0_C_1 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h5.read_unread, View.ld_unit_zero (S := S1x1) hz]
  rfl

theorem sout_C_2 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S1x2x512x512 .f32) (xs0 xs1 xs2 : Vec F S1x1 .f32) :
    sout0_C_2 c i a1 h1 a2 h2 a3 h3 a4 h4 a5 h5 a6 h6 hc0 hc1 x0 x1 xs0 xs1 xs2 = k0_pay3 (l1aPay x0 x1) (l1bPay x0 x1) xs2 := by
  unfold sout0_C_2
  rw [View.read_writes_eq_canon _ _ _ (scover0_C_2 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h6.read_unread, View.ld_unit_zero (S := S1x1) hz]
  rfl

theorem sout_A_0 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S1x2x512x512 .f32) :
    sout0_A_0 c i a1 h1 a2 h2 a3 h3 a4 h4 a5 h5 a6 h6 hc0 hc1 x0 x1 = k0_pay1 (massPay x0 x1) k0_pay5 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread]
  rfl

theorem sout_A_1 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S1x2x512x512 .f32) :
    sout0_A_1 c i a1 h1 a2 h2 a3 h3 a4 h4 a5 h5 a6 h6 hc0 hc1 x0 x1 = k0_pay2 (momPay x0 x1) k0_pay6 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread]
  rfl

theorem sout_A_2 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S1x2x512x512 .f32) :
    sout0_A_2 c i a1 h1 a2 h2 a3 h3 a4 h4 a5 h5 a6 h6 hc0 hc1 x0 x1 = k0_pay3 (l1aPay x0 x1) (l1bPay x0 x1) k0_pay7 := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread]
  rfl

/-- The last point's store to the output: the combination of the three accumulators as that point leaves them. -/
theorem out_C_2 (c : Dev nD) (i : grid0.Coords) (a1 : Memref sig .tc .vmem S1x2x512x512 .f32) (h1 : a1.IsWhole) (a2 : Memref sig .tc .vmem S1x2x512x512 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S1x2x512x512 .f32) (xs0 xs1 xs2 : Vec F S1x1 .f32) :
    out0_C_2 c i a1 h1 a2 h2 a3 h3 a4 h4 a5 h5 a6 h6 hc0 hc1 x0 x1 xs0 xs1 xs2
      = k0_pay4 (k0_pay1 (massPay x0 x1) xs0) (k0_pay2 (momPay x0 x1) xs1) (k0_pay3 (l1aPay x0 x1) (l1bPay x0 x1) xs2) := by
  unfold out0_C_2
  rw [View.read_writes_eq_canon _ _ _ (cover0_C_2 c i a1 h1 a2 h2 a3 h3 a4 h4 a5 h5 a6 h6 hc0 hc1 x0 x1 xs0 xs1 xs2)]
  unfold kernelRun0_C
  dsimp only
  sl_unfold_words
  rw [View.canon_unit_zero hz]
  simp only [View.readCov_unit_zero (S := S1x1) _ hz, View.readAt_eq_ld, h1.read_unread, h2.read_unread, h4.read_unread,
    h5.read_unread, h6.read_unread, View.ld_unit_zero (S := S1x1) hz]
  rfl

end Cert.KernelIdeal.Point

end
-- ==== Proof.KernelPointValue.lean ====
/-
  The numbers of one grid point read at the extended reals.

  Summing the lanes, then the column of lane sums, is the double sum over rows and columns; a field of the body — a window
  of a loaded slab of a block — read at (r, c) is the block at (0, component, r + dr, c + dc); so the mass number is the
  block's mass sum, the momentum number its momentum sum, the two absolute-difference numbers together its entry sum. An
  accumulator's update adds the point's number to what it held, the zero it is reset to is 0, and the last point's
  combination divides the first two accumulators by the number of interior points, weighs them by 5 and 25, adds the third
  divided by the number of entries, and divides by 3.
-/
import proofs.«159162_j53257594470622_1_alg».proof.Proof.KernelPoint

noncomputable section

open Idealize.ShloMosaic Idealize.ShloMosaic.TcCoe Idealize.SL.Sem Idealize.ShloMosaic.ValueIdx

namespace Cert.KernelIdeal.Point

open Cert.KernelIdeal Cert.KernelIdeal.Gen Cert.Stencil

/-- The mass number of a point is the mass sum of its blocks. -/
theorem massPay_apply (x0 x1 : Vec Ideal S1x2x512x512 .f32) (j : S1x1.Idx) :
    massPay x0 x1 j = massBlk x0 x1 := by
  unfold massPay k0_pay47
  refine (Cert.Layout.sum_keepdims _ _ _ _ _ _ _ _ j).trans ?_
  unfold massBlk
  refine Finset.sum_congr rfl fun r _ => Finset.sum_congr rfl fun c _ => ?_
  simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, slab0, slab1, absf, subf, addf, mulf, broadcast, Cert.Layout.loaded_window_eq]
  rfl

/-- The momentum number of a point is the momentum sum of its blocks. -/
theorem momPay_apply (x0 x1 : Vec Ideal S1x2x512x512 .f32) (j : S1x1.Idx) :
    momPay x0 x1 j = momBlk x0 x1 := by
  unfold momPay k0_pay48
  refine (Cert.Layout.sum_keepdims _ _ _ _ _ _ _ _ j).trans ?_
  unfold momBlk
  refine Finset.sum_congr rfl fun r _ => Finset.sum_congr rfl fun c _ => ?_
  simp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, slab0, slab1, absf, subf, addf, mulf, broadcast, Cert.Layout.loaded_window_eq]
  rfl

/-- The two absolute-difference numbers of a point add up to the entry sum of its blocks. -/
theorem l1Pay_apply (x0 x1 : Vec Ideal S1x2x512x512 .f32) (j : S1x1.Idx) :
    l1aPay x0 x1 j + l1bPay x0 x1 j = l1Blk x0 x1 := by
  unfold l1Blk
  congr 1
  · unfold l1aPay k0_pay49
    refine (Cert.Layout.sum_keepdims _ _ _ _ _ _ _ _ j).trans ?_
    refine Finset.sum_congr rfl fun u _ => Finset.sum_congr rfl fun v _ => ?_
    simp only [k0_pay8, k0_pay10, slab0, absf, subf, Cert.Layout.loaded_plane_eq]
    rfl
  · unfold l1bPay k0_pay50
    refine (Cert.Layout.sum_keepdims _ _ _ _ _ _ _ _ j).trans ?_
    refine Finset.sum_congr rfl fun u _ => Finset.sum_congr rfl fun v _ => ?_
    simp only [k0_pay9, k0_pay11, slab1, absf, subf, Cert.Layout.loaded_plane_eq]
    rfl

/-- An accumulator's update: what it held plus the point's number. -/
theorem pay1_apply (v : FVec Ideal S1x1 .f32) (xs : Vec Ideal S1x1 .f32) (j : S1x1.Idx) : k0_pay1 v xs j = xs j + v j := by
  unfold k0_pay1
  simp only [shapeCast_self]
  rfl

theorem pay2_apply (v : FVec Ideal S1x1 .f32) (xs : Vec Ideal S1x1 .f32) (j : S1x1.Idx) : k0_pay2 v xs j = xs j + v j := by
  unfold k0_pay2
  simp only [shapeCast_self]
  rfl

theorem pay3_apply (a b : FVec Ideal S1x1 .f32) (xs : Vec Ideal S1x1 .f32) (j : S1x1.Idx) :
    k0_pay3 a b xs j = xs j + (a j + b j) := by
  unfold k0_pay3
  simp only [shapeCast_self]
  rfl

/-- The zero an accumulator is reset to. -/
theorem pay5_apply (j : S1x1.Idx) : k0_pay5 (F := Ideal) j = 0 := by
  unfold k0_pay5
  simp only [shapeCast_self]
  exact Ideal.ofBits_zero_f32

theorem pay6_apply (j : S1x1.Idx) : k0_pay6 (F := Ideal) j = 0 := by
  unfold k0_pay6
  simp only [shapeCast_self]
  exact Ideal.ofBits_zero_f32

theorem pay7_apply (j : S1x1.Idx) : k0_pay7 (F := Ideal) j = 0 := by
  unfold k0_pay7
  simp only [shapeCast_self]
  exact Ideal.ofBits_zero_f32

/-- The last point's combination of the three accumulators. -/
theorem pay4_apply (a b c : Vec Ideal S1x1 .f32) (j : S1x1.Idx) :
    k0_pay4 a b c j
      = Ideal.div (Ideal.div (a j) nInterior * five + Ideal.div (b j) nInterior * twentyFive + Ideal.div (c j) nAll) three :=
  rfl

end Cert.KernelIdeal.Point

end
-- ==== Proof.KernelAccum.lean ====
/-
  The accumulation over the grid.

  The grid has one point per batch. The block a point reads of an input is that batch of the input array. The three
  accumulators are carried from point to point: after point n each holds the sum over the batches 0 … n of that batch's
  number (the first point adds its number to the zero it has just stored), so after the last point they hold the three
  sums over all batches, and the value the last point stores to the output is the loss.
-/
import proofs.«159162_j53257594470622_1_alg».proof.Proof.KernelPointValue

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Point Cert.Stencil

variable (m : (ℓ : Loc nD τ sig) → Buf (Elt Ideal) ℓ)

/-- The two input arrays as the region finds them, and the blocks a point reads of them. -/
abbrev predArr (c : Dev nD) : Vec Ideal S64x2x512x512 .f32 := V m c main_arg0
abbrev truthArr (c : Dev nD) : Vec Ideal S64x2x512x512 .f32 := V m c main_arg1
abbrev predBlk (c : Dev nD) (t : Fin cfg0.N) : Vec Ideal S1x2x512x512 .f32 := iblk m c 0 t
abbrev truthBlk (c : Dev nD) (t : Fin cfg0.N) : Vec Ideal S1x2x512x512 .f32 := iblk m c 1 t

/-- The batch of a point. -/
def batchOf (t : Fin cfg0.N) : Fin 64 := ⟨t.val, lt_of_lt_of_eq t.isLt N_0⟩

/-- Both input windows take block (t, 0, 0, 0) at point t. -/
theorem index_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0))

/-- The prediction's block at point t is batch t of the prediction. -/
theorem predBlk_apply (c : Dev nD) (t : Fin cfg0.N) (ch : Fin 2) (u v : Fin 512) :
    predBlk m c t (ix4 (0 : Fin 1) ch u v) = predArr m c (ix4 (batchOf t) ch u v) := by
  obtain ⟨⟨e0, e1, e2, e3⟩, -⟩ := index_facts t
  show iblk m c 0 t (ix4 (0 : Fin 1) ch u v) = V m c main_arg0 (ix4 (batchOf t) ch u v)
  unfold iblk
  rw [View.read_apply]
  show V m c main_arg0 _ = V m c main_arg0 _
  refine congrArg (V m c main_arg0) (funext fun a => Fin.ext ?_)
  match a with
  | ⟨0, _⟩ => show win0_0.index t 0 * 1 + 1 * 0 = t.val; rw [e0]; omega
  | ⟨1, _⟩ => show win0_0.index t 1 * 2 + 1 * ch.val = ch.val; rw [e1]; omega
  | ⟨2, _⟩ => show win0_0.index t 2 * 512 + 1 * u.val = u.val; rw [e2]; omega
  | ⟨3, _⟩ => show win0_0.index t 3 * 512 + 1 * v.val = v.val; rw [e3]; omega

/-- The truth's block at point t is batch t of the truth. -/
theorem truthBlk_apply (c : Dev nD) (t : Fin cfg0.N) (ch : Fin 2) (u v : Fin 512) :
    truthBlk m c t (ix4 (0 : Fin 1) ch u v) = truthArr m c (ix4 (batchOf t) ch u v) := by
  obtain ⟨-, ⟨e0, e1, e2, e3⟩⟩ := index_facts t
  show iblk m c 1 t (ix4 (0 : Fin 1) ch u v) = V m c main_arg1 (ix4 (batchOf t) ch u v)
  unfold iblk
  rw [View.read_apply]
  show V m c main_arg1 _ = V m c main_arg1 _
  refine congrArg (V m c main_arg1) (funext fun a => Fin.ext ?_)
  match a with
  | ⟨0, _⟩ => show win0_1.index t 0 * 1 + 1 * 0 = t.val; rw [e0]; omega
  | ⟨1, _⟩ => show win0_1.index t 1 * 2 + 1 * ch.val = ch.val; rw [e1]; omega
  | ⟨2, _⟩ => show win0_1.index t 2 * 512 + 1 * u.val = u.val; rw [e2]; omega
  | ⟨3, _⟩ => show win0_1.index t 3 * 512 + 1 * v.val = v.val; rw [e3]; omega

/-- The three numbers of point t are batch t's sums. -/
theorem massPay_point (c : Dev nD) (t : Fin cfg0.N) (j : S1x1.Idx) :
    massPay (predBlk m c t) (truthBlk m c t) j = massB (predArr m c) (truthArr m c) (batchOf t) :=
  (massPay_apply _ _ j).trans
    (massBlk_of_batch (predArr m c) (truthArr m c) (predBlk m c t) (truthBlk m c t) (batchOf t) (predBlk_apply m c t) (truthBlk_apply m c t))

theorem momPay_point (c : Dev nD) (t : Fin cfg0.N) (j : S1x1.Idx) :
    momPay (predBlk m c t) (truthBlk m c t) j = momB (predArr m c) (truthArr m c) (batchOf t) :=
  (momPay_apply _ _ j).trans
    (momBlk_of_batch (predArr m c) (truthArr m c) (predBlk m c t) (truthBlk m c t) (batchOf t) (predBlk_apply m c t) (truthBlk_apply m c t))

theorem l1Pay_point (c : Dev nD) (t : Fin cfg0.N) (j : S1x1.Idx) :
    l1aPay (predBlk m c t) (truthBlk m c t) j + l1bPay (predBlk m c t) (truthBlk m c t) j
      = l1B (predArr m c) (truthArr m c) (batchOf t) :=
  (l1Pay_apply _ _ j).trans
    (l1Blk_of_batch (predArr m c) (truthArr m c) (predBlk m c t) (truthBlk m c t) (batchOf t) (predBlk_apply m c t) (truthBlk_apply m c t))

/-! ## The cases of a point, over the named numbers -/

/-- The first point: each accumulator is its number added to the zero just stored. -/
theorem at_first (c : Dev nD) (t : Fin cfg0.N) (h0 : t.val % 64 = 0) (h1 : ¬t.val % 64 = 63) :
    (outsAt0 m c t.val t.isLt).2.1 = k0_pay1 (massPay (predBlk m c t) (truthBlk m c t)) (k0_pay5 (F := Ideal))
    ∧ (outsAt0 m c t.val t.isLt).2.2.1 = k0_pay2 (momPay (predBlk m c t) (truthBlk m c t)) (k0_pay6 (F := Ideal))
    ∧ (outsAt0 m c t.val t.isLt).2.2.2
        = k0_pay3 (l1aPay (predBlk m c t) (truthBlk m c t)) (l1bPay (predBlk m c t) (truthBlk m c t)) (k0_pay7 (F := Ideal)) := by
  rw [outsAt0_A m c t h0 h1]
  dsimp only
  exact ⟨sout_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (predBlk m c t) (truthBlk m c t),
    sout_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (predBlk m c t) (truthBlk m c t),
    sout_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (predBlk m c t) (truthBlk m c t)⟩

/-- A middle point: each accumulator is its number added to what the point before left. -/
theorem at_middle (c : Dev nD) (t : Fin cfg0.N) (h0 : ¬t.val % 64 = 0) (h1 : ¬t.val % 64 = 63) :
    (outsAt0 m c t.val t.isLt).2.1 = k0_pay1 (massPay (predBlk m c t) (truthBlk m c t)) (outsAt0 m c (t.val - 1) (Nat.lt_of_le_of_lt (Nat.sub_le _ _) t.isLt)).2.1
    ∧ (outsAt0 m c t.val t.isLt).2.2.1 = k0_pay2 (momPay (predBlk m c t) (truthBlk m c t)) (outsAt0 m c (t.val - 1) (Nat.lt_of_le_of_lt (Nat.sub_le _ _) t.isLt)).2.2.1
    ∧ (outsAt0 m c t.val t.isLt).2.2.2
        = k0_pay3 (l1aPay (predBlk m c t) (truthBlk m c t)) (l1bPay (predBlk m c t) (truthBlk m c t)) (outsAt0 m c (t.val - 1) (Nat.lt_of_le_of_lt (Nat.sub_le _ _) t.isLt)).2.2.2 := by
  rw [outsAt0_B m c t h0 h1]
  dsimp only
  exact ⟨sout_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last point: the accumulators as at a middle point, and the output their combination. -/
theorem at_last (c : Dev nD) (t : Fin cfg0.N) (h0 : ¬t.val % 64 = 0) (h1 : t.val % 64 = 63) :
    (outsAt0 m c t.val t.isLt).2.1 = k0_pay1 (massPay (predBlk m c t) (truthBlk m c t)) (outsAt0 m c (t.val - 1) (Nat.lt_of_le_of_lt (Nat.sub_le _ _) t.isLt)).2.1
    ∧ (outsAt0 m c t.val t.isLt).2.2.1 = k0_pay2 (momPay (predBlk m c t) (truthBlk m c t)) (outsAt0 m c (t.val - 1) (Nat.lt_of_le_of_lt (Nat.sub_le _ _) t.isLt)).2.2.1
    ∧ (outsAt0 m c t.val t.isLt).2.2.2
        = k0_pay3 (l1aPay (predBlk m c t) (truthBlk m c t)) (l1bPay (predBlk m c t) (truthBlk m c t)) (outsAt0 m c (t.val - 1) (Nat.lt_of_le_of_lt (Nat.sub_le _ _) t.isLt)).2.2.2
    ∧ (outsAt0 m c t.val t.isLt).1
        = k0_pay4 (k0_pay1 (massPay (predBlk m c t) (truthBlk m c t)) (outsAt0 m c (t.val - 1) (Nat.lt_of_le_of_lt (Nat.sub_le _ _) t.isLt)).2.1)
            (k0_pay2 (momPay (predBlk m c t) (truthBlk m c t)) (outsAt0 m c (t.val - 1) (Nat.lt_of_le_of_lt (Nat.sub_le _ _) t.isLt)).2.2.1)
            (k0_pay3 (l1aPay (predBlk m c t) (truthBlk m c t)) (l1bPay (predBlk m c t) (truthBlk m c t)) (outsAt0 m c (t.val - 1) (Nat.lt_of_le_of_lt (Nat.sub_le _ _) t.isLt)).2.2.2) := by
  rw [outsAt0_C m c t h0 h1]
  dsimp only
  exact ⟨sout_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    out_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (predBlk m c t) (truthBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- Any point but the first: the accumulators' updates. -/
theorem at_later (c : Dev nD) (t : Fin cfg0.N) (h0 : ¬t.val % 64 = 0) :
    (outsAt0 m c t.val t.isLt).2.1 = k0_pay1 (massPay (predBlk m c t) (truthBlk m c t)) (outsAt0 m c (t.val - 1) (Nat.lt_of_le_of_lt (Nat.sub_le _ _) t.isLt)).2.1
    ∧ (outsAt0 m c t.val t.isLt).2.2.1 = k0_pay2 (momPay (predBlk m c t) (truthBlk m c t)) (outsAt0 m c (t.val - 1) (Nat.lt_of_le_of_lt (Nat.sub_le _ _) t.isLt)).2.2.1
    ∧ (outsAt0 m c t.val t.isLt).2.2.2
        = k0_pay3 (l1aPay (predBlk m c t) (truthBlk m c t)) (l1bPay (predBlk m c t) (truthBlk m c t)) (outsAt0 m c (t.val - 1) (Nat.lt_of_le_of_lt (Nat.sub_le _ _) t.isLt)).2.2.2 := by
  by_cases h1 : t.val % 64 = 63
  · exact ⟨(at_last m c t h0 h1).1, (at_last m c t h0 h1).2.1, (at_last m c t h0 h1).2.2.1⟩
  · exact at_middle m c t h0 h1

/-! ## The running sums -/

/-- Batch k's three sums as functions of a natural number (nothing past the last batch). -/
def massN (c : Dev nD) (k : ℕ) : EReal := if h : k < 64 then massB (predArr m c) (truthArr m c) ⟨k, h⟩ else 0
def momN (c : Dev nD) (k : ℕ) : EReal := if h : k < 64 then momB (predArr m c) (truthArr m c) ⟨k, h⟩ else 0
def l1N (c : Dev nD) (k : ℕ) : EReal := if h : k < 64 then l1B (predArr m c) (truthArr m c) ⟨k, h⟩ else 0

theorem massN_point (c : Dev nD) (t : Fin cfg0.N) : massB (predArr m c) (truthArr m c) (batchOf t) = massN m c t.val := by
  unfold massN; rw [dif_pos (lt_of_lt_of_eq t.isLt N_0)]; rfl

theorem momN_point (c : Dev nD) (t : Fin cfg0.N) : momB (predArr m c) (truthArr m c) (batchOf t) = momN m c t.val := by
  unfold momN; rw [dif_pos (lt_of_lt_of_eq t.isLt N_0)]; rfl

theorem l1N_point (c : Dev nD) (t : Fin cfg0.N) : l1B (predArr m c) (truthArr m c) (batchOf t) = l1N m c t.val := by
  unfold l1N; rw [dif_pos (lt_of_lt_of_eq t.isLt N_0)]; rfl

/-- After point n each accumulator holds the sum of its numbers over the batches 0 … n. -/
theorem acc_eq (c : Dev nD) : ∀ (n : ℕ) (h : n < cfg0.N) (j : S1x1.Idx),
    (outsAt0 m c n h).2.1 j = ∑ k ∈ Finset.range (n + 1), massN m c k
    ∧ (outsAt0 m c n h).2.2.1 j = ∑ k ∈ Finset.range (n + 1), momN m c k
    ∧ (outsAt0 m c n h).2.2.2 j = ∑ k ∈ Finset.range (n + 1), l1N m c k
  | 0, h, j => by
    obtain ⟨e0, e1, e2⟩ := at_first m c ⟨0, h⟩ (Nat.zero_mod _) (by show ¬(0 : ℕ) % 64 = 63; decide)
    refine ⟨?_, ?_, ?_⟩
    · refine (congrFun e0 j).trans ?_
      rw [pay1_apply, pay5_apply, zero_add, massPay_point, massN_point, Finset.sum_range_one]
    · refine (congrFun e1 j).trans ?_
      rw [pay2_apply, pay6_apply, zero_add, momPay_point, momN_point, Finset.sum_range_one]
    · refine (congrFun e2 j).trans ?_
      rw [pay3_apply, pay7_apply, zero_add, l1Pay_point, l1N_point, Finset.sum_range_one]
  | n + 1, h, j => by
    have hN : n + 1 < 64 := lt_of_lt_of_eq h N_0
    obtain ⟨i0, i1, i2⟩ := acc_eq c n (Nat.lt_of_succ_lt h) j
    obtain ⟨e0, e1, e2⟩ := at_later m c ⟨n + 1, h⟩ (by show ¬(n + 1) % 64 = 0; omega)
    refine ⟨?_, ?_, ?_⟩
    · refine (congrFun e0 j).trans ?_
      rw [pay1_apply, massPay_point, massN_point, Finset.sum_range_succ _ (n + 1)]
      exact congrArg (fun x => x + massN m c (n + 1)) i0
    · refine (congrFun e1 j).trans ?_
      rw [pay2_apply, momPay_point, momN_point, Finset.sum_range_succ _ (n + 1)]
      exact congrArg (fun x => x + momN m c (n + 1)) i1
    · refine (congrFun e2 j).trans ?_
      rw [pay3_apply, l1Pay_point, l1N_point, Finset.sum_range_succ _ (n + 1)]
      exact congrArg (fun x => x + l1N m c (n + 1)) i2

theorem sum_massN (c : Dev nD) :
    ∑ k ∈ Finset.range 64, massN m c k = ∑ b : Fin 64, massB (predArr m c) (truthArr m c) b := by
  rw [Finset.sum_range]
  refine Finset.sum_congr rfl fun b _ => ?_
  unfold massN; rw [dif_pos b.isLt]

theorem sum_momN (c : Dev nD) :
    ∑ k ∈ Finset.range 64, momN m c k = ∑ b : Fin 64, momB (predArr m c) (truthArr m c) b := by
  rw [Finset.sum_range]
  refine Finset.sum_congr rfl fun b _ => ?_
  unfold momN; rw [dif_pos b.isLt]

theorem sum_l1N (c : Dev nD) :
    ∑ k ∈ Finset.range 64, l1N m c k = ∑ b : Fin 64, l1B (predArr m c) (truthArr m c) b := by
  rw [Finset.sum_range]
  refine Finset.sum_congr rfl fun b _ => ?_
  unfold l1N; rw [dif_pos b.isLt]

/-- What the last point stores to the output: the loss of the prediction against the truth. -/
theorem out_last (c : Dev nD) (t : Fin cfg0.N) (h1 : t.val % 64 = 63) (j : S1x1.Idx) :
    (outsAt0 m c t.val t.isLt).1 j = loss (predArr m c) (truthArr m c) := by
  have hN : t.val < 64 := lt_of_lt_of_eq t.isLt N_0
  have h0 : ¬t.val % 64 = 0 := by omega
  have hs : t.val + 1 = 64 := by omega
  obtain ⟨e0, e1, e2, e3⟩ := at_last m c t h0 h1
  obtain ⟨i0, i1, i2⟩ := acc_eq m c t.val t.isLt j
  rw [hs] at i0 i1 i2
  have a0 := (congrFun e0 j).symm.trans (i0.trans (sum_massN m c))
  have a1 := (congrFun e1 j).symm.trans (i1.trans (sum_momN m c))
  have a2 := (congrFun e2 j).symm.trans (i2.trans (sum_l1N m c))
  refine (congrFun e3 j).trans ?_
  rw [pay4_apply, a0, a1, a2]
  rfl

end Cert.KernelIdeal.Accum

end
-- ==== Proof.KernelValue.lean ====
/-
  The kernel's result.

  The output window's block is the whole one-entry result array; it is written back once, after the last point, when
  its staging buffer holds the loss; so the array ends holding the loss, and the reshape after the region hands it on as
  the rank-0 result. The argument arrays are inputs of the region and end as they began.
-/
import proofs.«159162_j53257594470622_1_alg».proof.Proof.KernelAccum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Accum Cert.Stencil

variable (m : (ℓ : Loc nD τ sig) → Buf (Elt Ideal) ℓ) (ρ : Dev nD → PrngReg)

/-- The one-entry result array holding the loss. -/
abbrev lossArr (c : Dev nD) : Buf (Elt Ideal) ((c : Thread nD τ).loc main_v0) :=
  fun _ => loss (predArr m c) (truthArr m c)

/-- The one write-back, after the last point, writes the loss. -/
theorem flushed_eq (c : Dev nD) (t : Fin cfg0.N) (hf : (cfg0.win 2).flush t = true) :
    (dats m 0 c).flushed 2 t = ((cfg0.win 2).blk t).view.read (Elt Ideal) (lossArr m c) := by
  have h1 : t.val % 64 = 63 := (flush0_2 t).mp hf
  show (cfg0.win 2).cut (grid0.coords t) ((dats m 0 c).after 2 t) = _
  rw [after0_2]
  funext y
  rw [View.read_apply]
  exact out_last m c t h1 _

/-- The last point, named. -/
abbrev tLast : Fin cfg0.N := ⟨63, by rw [show cfg0.N = 64 from N_0]; decide⟩

/-- Its block is the whole result array. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨tLast, (flush0_2 tLast).mpr rfl, ?_⟩
  show i ∈ ((View.whole main_v0).slice (win0_2.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index tLast 0 * win0_2.size 0 ≤ (i 0 : Nat) ∧ (i 0 : Nat) < win0_2.index tLast 0 * win0_2.size 0 + win0_2.xsize (grid0.coords tLast) 0
    rw [show win0_2.index tLast 0 * win0_2.size 0 = 0 from by decide +kernel, show win0_2.xsize (grid0.coords tLast) 0 = 1 from by decide +kernel]; omega
  | ⟨1, _⟩ =>
    show win0_2.index tLast 1 * win0_2.size 1 ≤ (i 1 : Nat) ∧ (i 1 : Nat) < win0_2.index tLast 1 * win0_2.size 1 + win0_2.xsize (grid0.coords tLast) 1
    rw [show win0_2.index tLast 1 * win0_2.size 1 = 0 from by decide +kernel, show win0_2.xsize (grid0.coords tLast) 1 = 1 from by decide +kernel]; omega

/-- So the result array ends holding the loss. -/
theorem final_out (c : Dev nD) : (dats m 0 c).arrAt 2 cfg0.N = lossArr m c :=
  (dats m 0 c).arrAt_eq_of_cover 2 (lossArr m c) (flushed_eq m c) (cover c)

/-- The program's result: the loss as a rank-0 array. -/
abbrev result (c : Dev nD) : Buf (Elt Ideal) ((c : Thread nD τ).loc main_v1) :=
  fun _ => loss (predArr m c) (truthArr m c)

/-- The reshape after the region hands the loss on. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = lossArr m c :=
    (Pipeline.withArrays_arr spec0 launch0.win.arr_inj c (V0 m c) (fun w => (dats m 0 c).arrAt w cfg0.N) 2).trans (final_out m c)
  rw [e]
  rfl

/-- The run, read: the result at the loss of the launch contents, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.LibSumIdx.lean ====
/-
  Sums over the multi-indices of a rank-3 or rank-4 shape as nested sums over the coordinates, and with the
  leading coordinate (or the two leading coordinates) split off from a trailing rank-2 index: the index
  space of a shape is the product of its coordinate ranges, so a sum over it in a commutative monoid may be
  taken one coordinate at a time, in any grouping.
-/
import Idealize.ShloMosaic.Lib.ValueIdx

namespace Idealize.ShloMosaic.ValueIdx

open Idealize.ShloMosaic

/-- A rank-3 multi-index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index space is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 multi-index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index space is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over a rank-3 index space: the leading coordinate outside, a rank-2 index inside. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over a rank-4 index space: the two leading coordinates outside, a rank-2 index inside. -/
theorem sum_idx4_lead2 {M : Type*} [AddCommMonoid M] {n0 n1 n2 n3 : Nat} (f : (⟨4, ![n0, n1, n2, n3]⟩ : Shape).Idx → M) :
    ∑ i, f i = ∑ a : Fin n0, ∑ b : Fin n1, ∑ j : (⟨2, ![n2, n3]⟩ : Shape).Idx, f (ix4 a b (j 0) (j 1)) := by
  rw [sum_idx4]
  refine Finset.sum_congr rfl fun a _ => ?_
  refine Finset.sum_congr rfl fun b _ => ?_
  rw [sum_idx2]
  rfl

end Idealize.ShloMosaic.ValueIdx
-- ==== Proof.RefValue.lean ====
/-
  The reference's result is the loss of the specification.

  Its run ends with one number: three reductions over every axis, each from zero — of the mass term over the
  [64, 510, 510] interior, of the momentum term over the same, of |pred - truth| over the whole [64, 2, 512, 512] array —,
  the first two divided by the number of interior points and weighed by 5 and 25, the third divided by the number of
  entries, the sum divided by 3. A reduction over every axis from zero is the sum over all indices, which is taken
  coordinate by coordinate; every field of the interior terms is a window of the whole array, one component of it, read at
  (b, r, c) at the array's (b, component, r + dr, c + dc): the stencil of the specification.
-/
import proofs.«159162_j53257594470622_1_alg».proof.Proof.Gen.ReferenceIdeal.Run
import proofs.«159162_j53257594470622_1_alg».proof.Proof.Stencil
import proofs.«159162_j53257594470622_1_alg».proof.Proof.Layout
import proofs.«159162_j53257594470622_1_alg».proof.Proof.LibSumIdx
import Idealize.ShloMosaic.Lib.IdealHost
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Value Cert.Stencil

/-- A reduction of a [64, 510, 510] array over every axis from zero: the sum batch by batch, row by row. -/
theorem reduceAll3 {axes : List (Fin 3)} (x : FVec Ideal ⟨3, ![64, 510, 510]⟩ .f32)
    (h : (⟨3, ![64, 510, 510]⟩ : Shape).ReducesTo axes ⟨0, ![]⟩) (hu : 0 < (⟨0, ![]⟩ : Shape).numel) (j : (⟨0, ![]⟩ : Shape).Idx) :
    Host.reduceAdd x (constant ⟨0, ![]⟩ .f32 0x00000000#32) h hu j
      = ∑ b : Fin 64, ∑ r : Fin 510, ∑ c : Fin 510, x (ix3 b r c) := by
  rw [hostReduceAdd_apply, Ideal.hostReduceAdd_total h (fun b => b.elim0), sum_idx3]
  show Ideal.ofBits .f32 0x00000000#32 + _ = _
  rw [Ideal.ofBits_zero_f32, zero_add]

/-- A reduction of the whole [64, 2, 512, 512] array over every axis from zero. -/
theorem reduceAll4 {axes : List (Fin 4)} (x : FVec Ideal ⟨4, ![64, 2, 512, 512]⟩ .f32)
    (h : (⟨4, ![64, 2, 512, 512]⟩ : Shape).ReducesTo axes ⟨0, ![]⟩) (hu : 0 < (⟨0, ![]⟩ : Shape).numel) (j : (⟨0, ![]⟩ : Shape).Idx) :
    Host.reduceAdd x (constant ⟨0, ![]⟩ .f32 0x00000000#32) h hu j
      = ∑ b : Fin 64, ∑ ch : Fin 2, ∑ u : Fin 512, ∑ v : Fin 512, x (ix4 b ch u v) := by
  rw [hostReduceAdd_apply, Ideal.hostReduceAdd_total h (fun b => b.elim0), sum_idx4]
  show Ideal.ofBits .f32 0x00000000#32 + _ = _
  rw [Ideal.ofBits_zero_f32, zero_add]

/-! ## The twenty fields: the five stencil positions of the two components of the two arrays -/

theorem fld_v6 (V0 : Valuation τ sig (Elt Ideal)) (b : Fin 64) (r c : Fin 510) :
    res_main_v6 V0 (ix3 b r c) = accAt (V0 (Proc.devRef .tc main_arg1)) b r c 0 1 1 := by
  unfold res_main_v6 res_main_v0
  exact Cert.Layout.window_component_eq _ 1 1 0 _ _ _ b r c

theorem fld_v8 (V0 : Valuation τ sig (Elt Ideal)) (b : Fin 64) (r c : Fin 510) :
    res_main_v8 V0 (ix3 b r c) = accAt (V0 (Proc.devRef .tc main_arg1)) b r c 1 1 1 := by
  unfold res_main_v8 res_main_v0
  exact Cert.Layout.window_component_eq _ 1 1 1 _ _ _ b r c

theorem fld_v10 (V0 : Valuation τ sig (Elt Ideal)) (b : Fin 64) (r c : Fin 510) :
    res_main_v10 V0 (ix3 b r c) = accAt (V0 (Proc.devRef .tc main_arg1)) b r c 0 0 1 := by
  unfold res_main_v10 res_main_v1
  exact Cert.Layout.window_component_eq _ 0 1 0 _ _ _ b r c

theorem fld_v12 (V0 : Valuation τ sig (Elt Ideal)) (b : Fin 64) (r c : Fin 510) :
    res_main_v12 V0 (ix3 b r c) = accAt (V0 (Proc.devRef .tc main_arg1)) b r c 1 0 1 := by
  unfold res_main_v12 res_main_v1
  exact Cert.Layout.window_component_eq _ 0 1 1 _ _ _ b r c

theorem fld_v14 (V0 : Valuation τ sig (Elt Ideal)) (b : Fin 64) (r c : Fin 510) :
    res_main_v14 V0 (ix3 b r c) = accAt (V0 (Proc.devRef .tc main_arg1)) b r c 0 2 1 := by
  unfold res_main_v14 res_main_v2
  exact Cert.Layout.window_component_eq _ 2 1 0 _ _ _ b r c

theorem fld_v16 (V0 : Valuation τ sig (Elt Ideal)) (b : Fin 64) (r c : Fin 510) :
    res_main_v16 V0 (ix3 b r c) = accAt (V0 (Proc.devRef .tc main_arg1)) b r c 1 2 1 := by
  unfold res_main_v16 res_main_v2
  exact Cert.Layout.window_component_eq _ 2 1 1 _ _ _ b r c

theorem fld_v18 (V0 : Valuation τ sig (Elt Ideal)) (b : Fin 64) (r c : Fin 510) :
    res_main_v18 V0 (ix3 b r c) = accAt (V0 (Proc.devRef .tc main_arg1)) b r c 0 1 0 := by
  unfold res_main_v18 res_main_v3
  exact Cert.Layout.window_component_eq _ 1 0 0 _ _ _ b r c

theorem fld_v20 (V0 : Valuation τ sig (Elt Ideal)) (b : Fin 64) (r c : Fin 510) :
    res_main_v20 V0 (ix3 b r c) = accAt (V0 (Proc.devRef .tc main_arg1)) b r c 1 1 0 := by
  unfold res_main_v20 res_main_v3
  exact Cert.Layout.window_component_eq _ 1 0 1 _ _ _ b r c

theorem fld_v22 (V0 : Valuation τ sig (Elt Ideal)) (b : Fin 64) (r c : Fin 510) :
    res_main_v22 V0 (ix3 b r c) = accAt (V0 (Proc.devRef .tc main_arg1)) b r c 0 1 2 := by
  unfold res_main_v22 res_main_v4
  exact Cert.Layout.window_component_eq _ 1 2 0 _ _ _ b r c

theorem fld_v24 (V0 : Valuation τ sig (Elt Ideal)) (b : Fin 64) (r c : Fin 510) :
    res_main_v24 V0 (ix3 b r c) = accAt (V0 (Proc.devRef .tc main_arg1)) b r c 1 1 2 := by
  unfold res_main_v24 res_main_v4
  exact Cert.Layout.window_component_eq _ 1 2 1 _ _ _ b r c

theorem fld_v102 (V0 : Valuation τ sig (Elt Ideal)) (b : Fin 64) (r c : Fin 510) :
    res_main_v102 V0 (ix3 b r c) = accAt (V0 (Proc.devRef .tc main_arg0)) b r c 0 1 1 := by
  unfold res_main_v102 res_main_v96
  exact Cert.Layout.window_component_eq _ 1 1 0 _ _ _ b r c

theorem fld_v104 (V0 : Valuation τ sig (Elt Ideal)) (b : Fin 64) (r c : Fin 510) :
    res_main_v104 V0 (ix3 b r c) = accAt (V0 (Proc.devRef .tc main_arg0)) b r c 1 1 1 := by
  unfold res_main_v104 res_main_v96
  exact Cert.Layout.window_component_eq _ 1 1 1 _ _ _ b r c

theorem fld_v106 (V0 : Valuation τ sig (Elt Ideal)) (b : Fin 64) (r c : Fin 510) :
    res_main_v106 V0 (ix3 b r c) = accAt (V0 (Proc.devRef .tc main_arg0)) b r c 0 0 1 := by
  unfold res_main_v106 res_main_v97
  exact Cert.Layout.window_component_eq _ 0 1 0 _ _ _ b r c

theorem fld_v108 (V0 : Valuation τ sig (Elt Ideal)) (b : Fin 64) (r c : Fin 510) :
    res_main_v108 V0 (ix3 b r c) = accAt (V0 (Proc.devRef .tc main_arg0)) b r c 1 0 1 := by
  unfold res_main_v108 res_main_v97
  exact Cert.Layout.window_component_eq _ 0 1 1 _ _ _ b r c

theorem fld_v110 (V0 : Valuation τ sig (Elt Ideal)) (b : Fin 64) (r c : Fin 510) :
    res_main_v110 V0 (ix3 b r c) = accAt (V0 (Proc.devRef .tc main_arg0)) b r c 0 2 1 := by
  unfold res_main_v110 res_main_v98
  exact Cert.Layout.window_component_eq _ 2 1 0 _ _ _ b r c

theorem fld_v112 (V0 : Valuation τ sig (Elt Ideal)) (b : Fin 64) (r c : Fin 510) :
    res_main_v112 V0 (ix3 b r c) = accAt (V0 (Proc.devRef .tc main_arg0)) b r c 1 2 1 := by
  unfold res_main_v112 res_main_v98
  exact Cert.Layout.window_component_eq _ 2 1 1 _ _ _ b r c

theorem fld_v114 (V0 : Valuation τ sig (Elt Ideal)) (b : Fin 64) (r c : Fin 510) :
    res_main_v114 V0 (ix3 b r c) = accAt (V0 (Proc.devRef .tc main_arg0)) b r c 0 1 0 := by
  unfold res_main_v114 res_main_v99
  exact Cert.Layout.window_component_eq _ 1 0 0 _ _ _ b r c

theorem fld_v116 (V0 : Valuation τ sig (Elt Ideal)) (b : Fin 64) (r c : Fin 510) :
    res_main_v116 V0 (ix3 b r c) = accAt (V0 (Proc.devRef .tc main_arg0)) b r c 1 1 0 := by
  unfold res_main_v116 res_main_v99
  exact Cert.Layout.window_component_eq _ 1 0 1 _ _ _ b r c

theorem fld_v118 (V0 : Valuation τ sig (Elt Ideal)) (b : Fin 64) (r c : Fin 510) :
    res_main_v118 V0 (ix3 b r c) = accAt (V0 (Proc.devRef .tc main_arg0)) b r c 0 1 2 := by
  unfold res_main_v118 res_main_v100
  exact Cert.Layout.window_component_eq _ 1 2 0 _ _ _ b r c

theorem fld_v120 (V0 : Valuation τ sig (Elt Ideal)) (b : Fin 64) (r c : Fin 510) :
    res_main_v120 V0 (ix3 b r c) = accAt (V0 (Proc.devRef .tc main_arg0)) b r c 1 1 2 := by
  unfold res_main_v120 res_main_v100
  exact Cert.Layout.window_component_eq _ 1 2 1 _ _ _ b r c

/-- The reference's result, at the launch contents `V0`, is the loss of the prediction (argument 0) against the truth
    (argument 1). -/
theorem result_eq (V0 : Valuation τ sig (Elt Ideal)) :
    Host.divf (addf (res_main_v223 V0) (Host.divf (Host.reduceAdd (Host.absf (subf (V0 (Proc.devRef .tc main_arg0)) (V0 (Proc.devRef .tc main_arg1)))) (constant S_ .f32 0x00000000#32) reducesTo_S64x2x512x512_S_d0_1_2_3 h_S_) (constant S_ .f32 0x4C000000#32))) (constant S_ .f32 0x40400000#32) ix0
      = loss (V0 (Proc.devRef .tc main_arg0)) (V0 (Proc.devRef .tc main_arg1)) := by
  unfold res_main_v223 loss
  show Ideal.div (Ideal.div (Host.reduceAdd (F := Ideal) (φ := .f32) _ _ _ _ ix0) nInterior * five
      + Ideal.div (Host.reduceAdd (F := Ideal) (φ := .f32) _ _ _ _ ix0) nInterior * twentyFive
      + Ideal.div (Host.reduceAdd (F := Ideal) (φ := .f32) _ _ _ _ ix0) nAll) three = _
  rw [reduceAll3, reduceAll3, reduceAll4]
  refine congrArg₂ Ideal.div (congrArg₂ (· + ·) (congrArg₂ (· + ·) (congrArg₂ (· * ·) (congrArg₂ Ideal.div ?_ rfl) rfl)
    (congrArg₂ (· * ·) (congrArg₂ Ideal.div ?_ rfl) rfl)) (congrArg₂ Ideal.div ?_ rfl)) rfl
  · refine Finset.sum_congr rfl fun b _ => ?_
    unfold massB
    refine Finset.sum_congr rfl fun r _ => Finset.sum_congr rfl fun c _ => ?_
    simp only [res_main_v27, res_main_v30, res_main_v123, res_main_v126, res_main_v37, res_main_v39, res_main_v53, res_main_v55, res_main_v133, res_main_v135, res_main_v149, res_main_v151, Host.absf, subf, addf, mulf, fld_v6, fld_v8, fld_v10, fld_v12, fld_v14, fld_v16, fld_v18, fld_v20, fld_v22, fld_v24, fld_v102, fld_v104, fld_v106, fld_v108, fld_v110, fld_v112, fld_v114, fld_v116, fld_v118, fld_v120]
    rfl
  · refine Finset.sum_congr rfl fun b _ => ?_
    unfold momB
    refine Finset.sum_congr rfl fun r _ => Finset.sum_congr rfl fun c _ => ?_
    simp only [res_main_v27, res_main_v30, res_main_v123, res_main_v126, res_main_v37, res_main_v39, res_main_v53, res_main_v55, res_main_v133, res_main_v135, res_main_v149, res_main_v151, Host.absf, subf, addf, mulf, fld_v6, fld_v8, fld_v10, fld_v12, fld_v14, fld_v16, fld_v18, fld_v20, fld_v22, fld_v24, fld_v102, fld_v104, fld_v106, fld_v108, fld_v110, fld_v112, fld_v114, fld_v116, fld_v118, fld_v120]
    rfl
  · refine Finset.sum_congr rfl fun b _ => ?_
    unfold l1B
    rw [Fin.sum_univ_two]
    rfl

end Cert.ReferenceIdeal.RefValue

end
-- ==== Proof.lean ====
/-
  The certificate: a finite-difference loss of two velocity fields, computed by a kernel gridded over the batch and
  by a whole-array reference.

  Both programs take a prediction and a truth, each [64, 2, 512, 512], and form at every interior point of every batch
  the discrete mass residual and the two momentum residuals of each field (Proof/Stencil.lean); the loss is

    ( mean |mass(truth) - mass(pred)| * 5 + mean (|mom_u(truth) - mom_u(pred)| + |mom_v(truth) - mom_v(pred)|) * 25
      + mean |pred - truth| ) / 3.

  The reference sums each of the three terms over all of its indices at once and divides by the count. The kernel
  visits one batch per grid point, sums each term over that batch (lanes first, then the column of lane sums), adds the
  three numbers into three one-element accumulators carried from point to point, and at the last point divides by the
  same counts and combines. Over the extended reals addition is commutative and associative, so the sum over all
  indices is the sum over the batches of the per-batch sums of the row sums, and the two results are one number: no
  finiteness of the inputs is used. Nothing was rewritten by the idealization, so the kernel is its own idealization.

  The frames of the two kernel programs are the generated ones; the reference's frame is its generated run with the
  result dropped. The value of the kernel is read off its generated frame run (Proof/KernelPoint.lean,
  Proof/KernelPointValue.lean, Proof/KernelAccum.lean, Proof/KernelValue.lean), the value of the reference off its
  generated run (Proof/RefValue.lean).
-/
import proofs.«159162_j53257594470622_1_alg».proof.Defs
import proofs.«159162_j53257594470622_1_alg».proof.Proof.Gen.Kernel
import proofs.«159162_j53257594470622_1_alg».proof.Proof.Gen.Kernel.Skeleton
import proofs.«159162_j53257594470622_1_alg».proof.Proof.Gen.Kernel.Launch
import proofs.«159162_j53257594470622_1_alg».proof.Proof.Gen.Kernel.Points
import proofs.«159162_j53257594470622_1_alg».proof.Proof.Gen.Kernel.Frame
import proofs.«159162_j53257594470622_1_alg».proof.Proof.Gen.KernelIdeal
import proofs.«159162_j53257594470622_1_alg».proof.Proof.Gen.KernelIdeal.Skeleton
import proofs.«159162_j53257594470622_1_alg».proof.Proof.Gen.KernelIdeal.Launch
import proofs.«159162_j53257594470622_1_alg».proof.Proof.Gen.KernelIdeal.Points
import proofs.«159162_j53257594470622_1_alg».proof.Proof.Gen.KernelIdeal.Frame
import proofs.«159162_j53257594470622_1_alg».proof.Proof.Gen.ReferenceIdeal
import proofs.«159162_j53257594470622_1_alg».proof.Proof.Gen.ReferenceIdeal.Run
import proofs.«159162_j53257594470622_1_alg».proof.Proof.Gen.Pre_finite_inputs
import proofs.«159162_j53257594470622_1_alg».proof.Proof.KernelValue
import proofs.«159162_j53257594470622_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result is the loss of its arguments, the reference's the loss of its own, and
    the arguments agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  funext j
  obtain rfl : j = ix0 := eq_ix0 j
  refine (Cert.ReferenceIdeal.RefValue.result_eq (StableHlo.launchContents m' c)).trans ?_
  show Cert.Stencil.loss (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.Stencil.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
